-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S64x1024 : Shape := ⟨2, ![64, 1024]⟩
abbrev S1024x64 : Shape := ⟨2, ![1024, 64]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S4x8192x1024 .f32) (main_arg1 : FVec F S64x1024 .f32) (main_arg2 : FVec F S64x1024 .f32) (main_arg3 : FVec F S64x1024 .f32) (main_arg4 : FVec F S1024x64 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S4x8192x1024 : Shape := ⟨3, ![4, 8192, 1024]⟩
abbrev S64x1024 : Shape := ⟨2, ![64, 1024]⟩
abbrev S1024x64 : Shape := ⟨2, ![1024, 64]⟩
abbrev S4x8192x64 : Shape := ⟨3, ![4, 8192, 64]⟩
abbrev S4x64x64 : Shape := ⟨3, ![4, 64, 64]⟩
abbrev S1x2048x1024 : Shape := ⟨3, ![1, 2048, 1024]⟩
abbrev S1x2048x64 : Shape := ⟨3, ![1, 2048, 64]⟩
abbrev S1x64x64 : Shape := ⟨3, ![1, 64, 64]⟩
abbrev S64x64 : Shape := ⟨2, ![64, 64]⟩
abbrev S2048x1024 : Shape := ⟨2, ![2048, 1024]⟩
abbrev S2048x64 : Shape := ⟨2, ![2048, 64]⟩
abbrev S64x2048 : Shape := ⟨2, ![64, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S1024x64, .f32⟩
  | .hbm, ⟨5, _⟩ => ⟨S4x8192x64, .f32⟩
  | .hbm, ⟨6, _⟩ => ⟨S4x64x64, .f32⟩
  | .hbm, ⟨7, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S1x2048x64, .f32⟩
  | .local _ .vmem, ⟨6, _⟩ => ⟨S1x2048x64, .f32⟩
  | .local _ .vmem, ⟨7, _⟩ => ⟨S1x64x64, .f32⟩
  | .local _ .vmem, ⟨8, _⟩ => ⟨S1x64x64, .f32⟩
  | .local _ .vmem, ⟨9, _⟩ => ⟨S64x64, .f32⟩
  | .local _ .vmem, ⟨10, _⟩ => ⟨S1x2048x64, .f32⟩
  | .local _ .vmem, ⟨11, _⟩ => ⟨S1x2048x64, .f32⟩
  | .local _ .vmem, ⟨12, _⟩ => ⟨S1x64x64, .f32⟩
  | .local _ .vmem, ⟨13, _⟩ => ⟨S1x64x64, .f32⟩
  | .local _ .vmem, ⟨14, _⟩ => ⟨S1024x64, .f32⟩
  | .local _ .vmem, ⟨15, _⟩ => ⟨S1x2048x1024, .f32⟩
  | .local _ .vmem, ⟨16, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  transposes_S2048x64_p1_0_S64x2048 : S2048x64.Transposes [1, 0] S64x2048
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1024x64_S1024x64_0_0 : ∀ a, (![0, 0] : Fin 2 → Nat) a + S1024x64.size a ≤ S1024x64.size a
  h_S1024x64 : 0 < S1024x64.numel
  transposes_S1024x64_p1_0_S64x1024 : S1024x64.Transposes [1, 0] S64x1024
  shapeCasts_S2048x1024_S1x2048x1024 : S2048x1024.ShapeCasts S1x2048x1024
  dot_S2048x1024_S1024x64_S2048x64_1_0_0_1_n_n_wf : DotDims.WF S2048x1024 S1024x64 S2048x64 [1] [0] [0] [1] [] []
  dot_S64x2048_S2048x64_S64x64_1_0_0_1_n_n_wf : DotDims.WF S64x2048 S2048x64 S64x64 [1] [0] [0] [1] [] []
  dot_S2048x64_S64x64_S2048x64_1_0_0_1_n_n_wf : DotDims.WF S2048x64 S64x64 S2048x64 [1] [0] [0] [1] [] []
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S4x8192x64.size a
  hwx0_4 : ∀ i : grid0.Coords, EltTy.bits .f32 = 32 ∨ (Rect.block (s := S4x8192x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S4x64x64.size a
  hwx0_5 : ∀ i : grid0.Coords, EltTy.bits .f32 = 32 ∨ (Rect.block (s := S4x64x64) S1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S4x8192x64.size a
  hwx1_0 : ∀ i : grid1.Coords, EltTy.bits .f32 = 32 ∨ (Rect.block (s := S4x8192x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .f32 = 32 ∨ (Rect.block (s := S1024x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x8192x1024.size a
  hwx1_3 : ∀ i : grid1.Coords, EltTy.bits .f32 = 32 ∨ (Rect.block (s := S4x8192x1024) S1x2048x1024.size (cc1_transform_3 i) (hinb1_3 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x1024 : Shape := ⟨3, ![4, 8192, 1024]⟩
abbrev S64x1024 : Shape := ⟨2, ![64, 1024]⟩
abbrev S1024x64 : Shape := ⟨2, ![1024, 64]⟩
abbrev S4x8192x64 : Shape := ⟨3, ![4, 8192, 64]⟩
abbrev S4x64x64 : Shape := ⟨3, ![4, 64, 64]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S1024x64, .f32⟩
  | .hbm, ⟨5, _⟩ => ⟨S4x8192x64, .f32⟩
  | .hbm, ⟨6, _⟩ => ⟨S4x8192x64, .f32⟩
  | .hbm, ⟨7, _⟩ => ⟨S4x8192x64, .f32⟩
  | .hbm, ⟨8, _⟩ => ⟨S4x64x64, .f32⟩
  | .hbm, ⟨9, _⟩ => ⟨S4x8192x64, .f32⟩
  | .hbm, ⟨10, _⟩ => ⟨S_, .f32⟩
  | .hbm, ⟨11, _⟩ => ⟨S4x8192x64, .f32⟩
  | .hbm, ⟨12, _⟩ => ⟨S4x8192x64, .f32⟩
  | .hbm, ⟨13, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4x8192x64 : S_.BroadcastsInDim S4x8192x64 (![] : Fin 0 → Fin S4x8192x64.rank)
  dot_S4x8192x1024_S64x1024_S4x8192x64_2_1_01_0_n_n_wf : DotDims.WF S4x8192x1024 S64x1024 S4x8192x64 [2] [1] [0, 1] [0] [] []
  dot_S4x8192x64_S4x8192x64_S4x64x64_1_1_2_2_0_0_wf : DotDims.WF S4x8192x64 S4x8192x64 S4x64x64 [1] [1] [2] [2] [0] [0]
  dot_S4x8192x64_S4x64x64_S4x8192x64_2_1_1_2_0_0_wf : DotDims.WF S4x8192x64 S4x64x64 S4x8192x64 [2] [1] [1] [2] [0] [0]
  dot_S4x8192x64_S1024x64_S4x8192x1024_2_1_01_0_n_n_wf : DotDims.WF S4x8192x64 S1024x64 S4x8192x1024 [2] [1] [0, 1] [0] [] []

variable [Facts₀]

def dot_S4x8192x1024_S64x1024_S4x8192x64_2_1_01_0_n_n : DotDims S4x8192x1024 S64x1024 S4x8192x64 where
  lhsContracting := [2]
  rhsContracting := [1]
  lhsNonContracting := [0, 1]
  rhsNonContracting := [0]
  lhsBatch := []
  rhsBatch := []
  wf := dot_S4x8192x1024_S64x1024_S4x8192x64_2_1_01_0_n_n_wf
def dot_S4x8192x64_S4x8192x64_S4x64x64_1_1_2_2_0_0 : DotDims S4x8192x64 S4x8192x64 S4x64x64 where
  lhsContracting := [1]
  rhsContracting := [1]
  lhsNonContracting := [2]
  rhsNonContracting := [2]
  lhsBatch := [0]
  rhsBatch := [0]
  wf := dot_S4x8192x64_S4x8192x64_S4x64x64_1_1_2_2_0_0_wf
def dot_S4x8192x64_S4x64x64_S4x8192x64_2_1_1_2_0_0 : DotDims S4x8192x64 S4x64x64 S4x8192x64 where
  lhsContracting := [2]
  rhsContracting := [1]
  lhsNonContracting := [1]
  rhsNonContracting := [2]
  lhsBatch := [0]
  rhsBatch := [0]
  wf := dot_S4x8192x64_S4x64x64_S4x8192x64_2_1_1_2_0_0_wf
def dot_S4x8192x64_S1024x64_S4x8192x1024_2_1_01_0_n_n : DotDims S4x8192x64 S1024x64 S4x8192x1024 where
  lhsContracting := [2]
  rhsContracting := [1]
  lhsNonContracting := [0, 1]
  rhsNonContracting := [0]
  lhsBatch := []
  rhsBatch := []
  wf := dot_S4x8192x64_S1024x64_S4x8192x1024_2_1_01_0_n_n_wf

class Facts : Prop extends Facts₀ where

variable [Facts]
-- ==== Proof.K.R0.lean ====
/-
  The first pallas_call (projections and energy) of the program, at a parameter `V`: the buffers' contents when the region
  is entered. At grid point `t = 4·b + n` the body reads a 2048-row tile `X` of the input (batch `b`, tile `n`) and the
  three projection matrices, stores the tile's queries `X · Wqᵀ` over its first output block, adds `(X · Wkᵀ)ᵀ · (X · Wvᵀ)`
  into a 64×64 scratch accumulator — reset to zero first when `n = 0` — and stores the accumulator over its second output
  block, which is written back when the batch's last tile is done. The accumulator is carried from point to point: after point
  `t` it holds the sum over the batch's tiles `0 … n`, stated here by recursion on the point.
-/
import proofs.«129314_j39986145526411_1_alg».proof.Proof.Gen.Kernel.Launch
import proofs.«129314_j39986145526411_1_alg».proof.Proof.Gen.Kernel.Skeleton
import proofs.«129314_j39986145526411_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Each projection matrix's staging buffer holds the whole matrix at every point: fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch: the accumulator is reset at the first tile of a batch -/

/-- The condition of the body's one branch, from the grid coordinates: the tile index is zero. -/
abbrev cond0 (i : grid0.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-! ## What the body computes -/

/-- The zero accumulator. -/
abbrev zero0 : Vec F S64x64 .f32 := k0_pay1
/-- The queries of a tile: what the body stores over its first output block. -/
abbrev out0_4 (x0 : Vec F S1x2048x1024 .f32) (x1 : Vec F S64x1024 .f32) : Vec F S1x2048x64 .f32 := k0_pay3 x0 x1
/-- The accumulator after the body, from the tile, the key and value projections and the accumulator `s` the body adds into. -/
abbrev acc0 (x0 : Vec F S1x2048x1024 .f32) (x2 x3 : Vec F S64x1024 .f32) (s : Vec F S64x64 .f32) : Vec F S64x64 .f32 := k0_pay4 x0 x2 x3 s
/-- The accumulator as the body stores it over its second output block. -/
abbrev out0_5 (s : Vec F S64x64 .f32) : Vec F S1x64x64 .f32 := k0_pay5 s

theorem hz2 : (![0, 0] : Fin 2 → ℕ) = fun _ => 0 := by funext a; fin_cases a <;> rfl
theorem hz3 : (![0, 0, 0] : Fin 3 → ℕ) = fun _ => 0 := by funext a; fin_cases a <;> rfl

/-- The contents read back after stores of which the LAST covered the whole buffer are that store's payload. -/
theorem read_writes_cons_unit {Val : EltTy → Type} [∀ e, Nonempty (Val e)] {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of the whole buffer after stores of which the LAST covered the whole buffer reads that store's payload. -/
theorem readCov_cons_unit {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The body's triple, in its two cases -/

set_option maxHeartbeats 2000000 in
/-- At the first tile of a batch: the accumulator, at anything, is zeroed first. -/
theorem sound_kernel0_first (c : Dev nD) (E : Set ℕ) (i : grid0.Coords) (hc : cond0 i)
    (arg2 : Memref sig .tc .vmem S1x2048x1024 .f32) (harg2 : arg2.IsWhole) (arg3 : Memref sig .tc .vmem S64x1024 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x2048x64 .f32) (harg6 : arg6.IsWhole) (arg7 : Memref sig .tc .vmem S1x64x64 .f32) (harg7 : arg7.IsWhole)
    (arg8 : Memref sig .tc .vmem S64x64 .f32) (harg8 : arg8.IsWhole)
    (x0 : Vec F S1x2048x1024 .f32) (x1 x2 x3 : Vec F S64x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1)
            ∗ owns (c : Thread nD τ) arg7 fullShare (out0_5 (acc0 x0 x2 x3 zero0))
            ∗ owns (c : Thread nD τ) arg8 fullShare (acc0 x0 x2 x3 zero0)) -∗ K ⟨⟩))
      ⊢ wp frame (wpE (defs₀ (F := F)) Variants.none c none) E (cc0__proj_energy_kernel i arg2 harg2 arg3 harg3 arg4 harg4 arg5 harg5 arg6 harg6 arg7 harg7 arg8 harg8) K := by
  simp only [cc0__proj_energy_kernel_eq_skeleton]; unfold cc0__proj_energy_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_unit _ _ hz3 _ _ _).trans ?_
    simp only [View.readAt_eq_ld, View.ld_unit_zero (S := S1x2048x1024) hz3, View.ld_unit_zero (S := S64x1024) hz2]
  isplitl [H5]
  · iexists _; isplitr
    swap; · iexact H5
    ipureintro
    refine (read_writes_cons_unit _ _ hz3 _ _ _).trans ?_
    simp only [View.readAt_eq_ld, View.ld_unit_zero (S := S1x2048x1024) hz3, View.ld_unit_zero (S := S64x1024) hz2,
      readCov_cons_unit (S := S64x64) _ hz2, View.readCov_unit_zero (S := S64x64) _ hz2]
  · iexists _; isplitr
    swap; · iexact H6
    ipureintro
    refine (read_writes_cons_unit _ _ hz2 _ _ _).trans ?_
    simp only [View.readAt_eq_ld, View.ld_unit_zero (S := S1x2048x1024) hz3, View.ld_unit_zero (S := S64x1024) hz2,
      readCov_cons_unit (S := S64x64) _ hz2, View.readCov_unit_zero (S := S64x64) _ hz2]

set_option maxHeartbeats 2000000 in
/-- At a later tile of a batch: the accumulator, at contents `s`, is added into. -/
theorem sound_kernel0_next (c : Dev nD) (E : Set ℕ) (i : grid0.Coords) (hc : ¬cond0 i)
    (arg2 : Memref sig .tc .vmem S1x2048x1024 .f32) (harg2 : arg2.IsWhole) (arg3 : Memref sig .tc .vmem S64x1024 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x2048x64 .f32) (harg6 : arg6.IsWhole) (arg7 : Memref sig .tc .vmem S1x64x64 .f32) (harg7 : arg7.IsWhole)
    (arg8 : Memref sig .tc .vmem S64x64 .f32) (harg8 : arg8.IsWhole)
    (x0 : Vec F S1x2048x1024 .f32) (x1 x2 x3 : Vec F S64x1024 .f32) (s : Vec F S64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1)
            ∗ owns (c : Thread nD τ) arg7 fullShare (out0_5 (acc0 x0 x2 x3 s))
            ∗ owns (c : Thread nD τ) arg8 fullShare (acc0 x0 x2 x3 s)) -∗ K ⟨⟩))
      ⊢ wp frame (wpE (defs₀ (F := F)) Variants.none c none) E (cc0__proj_energy_kernel i arg2 harg2 arg3 harg3 arg4 harg4 arg5 harg5 arg6 harg6 arg7 harg7 arg8 harg8) K := by
  simp only [cc0__proj_energy_kernel_eq_skeleton]; unfold cc0__proj_energy_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0; subst hf1; subst hf2; subst hf3; subst hf6
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_unit _ _ hz3 _ _ _).trans ?_
    simp only [View.readAt_eq_ld, View.ld_unit_zero (S := S1x2048x1024) hz3, View.ld_unit_zero (S := S64x1024) hz2]
  isplitl [H5]
  · iexists _; isplitr
    swap; · iexact H5
    ipureintro
    refine (read_writes_cons_unit _ _ hz3 _ _ _).trans ?_
    simp only [View.readAt_eq_ld, View.ld_unit_zero (S := S1x2048x1024) hz3, View.ld_unit_zero (S := S64x1024) hz2,
      View.ld_unit_zero (S := S64x64) hz2, readCov_cons_unit (S := S64x64) _ hz2, View.readCov_unit_zero (S := S64x64) _ hz2]
  · iexists _; isplitr
    swap; · iexact H6
    ipureintro
    refine (read_writes_cons_unit _ _ hz2 _ _ _).trans ?_
    simp only [View.readAt_eq_ld, View.ld_unit_zero (S := S1x2048x1024) hz3, View.ld_unit_zero (S := S64x1024) hz2,
      View.ld_unit_zero (S := S64x64) hz2, readCov_cons_unit (S := S64x64) _ hz2, View.readCov_unit_zero (S := S64x64) _ hz2]

/-! ## The accumulator, point by point -/

/-- The accumulator after point `n`: at the first tile of a batch the tile's product over zero, at a later tile over what
    the point before left. -/
def sc0 (c : Dev nD) : (n : ℕ) → n < cfg0.N → Vec F S64x64 .f32
  | 0, h => acc0 (iblk0 V c 0 ⟨0, h⟩) (iblk0 V c 2 ⟨0, h⟩) (iblk0 V c 3 ⟨0, h⟩) zero0
  | n + 1, h =>
    if (n + 1) % 4 = 0 then acc0 (iblk0 V c 0 ⟨n + 1, h⟩) (iblk0 V c 2 ⟨n + 1, h⟩) (iblk0 V c 3 ⟨n + 1, h⟩) zero0
    else acc0 (iblk0 V c 0 ⟨n + 1, h⟩) (iblk0 V c 2 ⟨n + 1, h⟩) (iblk0 V c 3 ⟨n + 1, h⟩) (sc0 c n (Nat.lt_of_succ_lt h))

/-- At the first tile of a batch the accumulator starts from zero. -/
theorem sc0_reset (c : Dev nD) (t : Fin cfg0.N) (h0 : t.val % 4 = 0) :
    sc0 V c t.val t.isLt = acc0 (iblk0 V c 0 t) (iblk0 V c 2 t) (iblk0 V c 3 t) zero0 := by
  obtain ⟨n, hn⟩ := t
  cases n with
  | zero => rfl
  | succ n => simp only [sc0]; rw [if_pos h0]

/-- At a later tile it adds into what the point before left. -/
theorem sc0_step (c : Dev nD) (t : Fin cfg0.N) (h0 : ¬t.val % 4 = 0) :
    sc0 V c t.val t.isLt = acc0 (iblk0 V c 0 t) (iblk0 V c 2 t) (iblk0 V c 3 t)
      (sc0 V c (t.val - 1) (Nat.lt_of_le_of_lt (Nat.sub_le _ _) t.isLt)) := by
  obtain ⟨n, hn⟩ := t
  cases n with
  | zero => exact absurd rfl h0
  | succ n => simp only [sc0]; rw [if_neg h0]; rfl

/-! ## The invariant: the accumulator's contents are carried -/

/-- The scratch accumulator as a memref. -/
abbrev scM0 : Memref sig .tc .vmem S64x64 .f32 := Memref.whole cc0_scratch0

/-- The core's other scoped buffers that this pallas_call does not stage: the second pallas_call's staging buffers, each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's plain invariant with the accumulator held as a memref at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; rfl

/-- Before the first point the plain invariant; after point `n` the accumulator at that point's contents, the rest as it was. -/
def PhiS0 (c : Dev nD) : (n : ℕ) → n ≤ cfg0.N → sProp 𝕄
  | 0, _ => Pipeline.ΦA spec0 c
  | n + 1, hn => iprop(iprop(owns (c : Thread nD τ) scM0 fullShare (sc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (sc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (sc0 V c (n - 1) (by omega)) ∗ rest0 c) ∗ (∃ r, prngReg c r)) := by
  cases n with
  | zero => exact absurd rfl hz
  | succ n => rfl

/-! ## The pipeline's proof data -/

/-- The proof data of the first pallas_call on core `c`: the arrays as the region finds them; after the body at point `t`
    each input's buffer at its block, the first output's at the tile's queries, the second's at the accumulator after the
    point; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (sc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (sc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; the closed form says whether the point starts a batch; the
    invariant hands the body the accumulator at what the point before left (at anything before the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5]
  by_cases h0 : t.val % 4 = 0
  · rw [sc0_reset V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel0_first c Set.univ (grid0.coords t) ((hcond0 t).mpr h0) _ _ _ _ _ _ _ _ _ _ _ _ _ _
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel0_first c Set.univ (grid0.coords t) ((hcond0 t).mpr h0) _ _ _ _ _ _ _ _ _ _ _ _ _ _
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexists _; iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [sc0_step V c t h0]
    have hz : t.val ≠ 0 := fun e => h0 (by rw [e])
    rw [PhiS0_castSucc V c t, PhiS0_pos V c _ _ hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel0_next c Set.univ (grid0.coords t) (fun h => h0 ((hcond0 t).mp h)) _ _ _ _ _ _ _ _ _ _ _ _ _ _
      (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.K.R1.lean ====
/-
  The second pallas_call (the context kernel) of the program, at a parameter `V`: the buffers' contents when the region is
  entered. At grid point `t = 4·b + n` the body reads a 2048-row tile `Q` of the projected queries (batch `b`, tile `n`),
  the batch's 64×64 energy matrix `E` and the whole output projection `Wo`, and stores `((Q · E) · s) · Woᵀ` over its
  whole output block, `s` the scale constant. Nothing is kept between points: the body's result is one function of the
  three blocks it loads.
-/
import proofs.«129314_j39986145526411_1_alg».proof.Proof.Gen.Kernel.Launch
import proofs.«129314_j39986145526411_1_alg».proof.Proof.Gen.Kernel.Skeleton
import proofs.«129314_j39986145526411_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The energy matrix's staging buffer holds its block at every point: fetched when the batch changes, kept in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output projection's staging buffer holds the whole matrix at every point: fetched once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x2048x64 := Rect.unit (s := S1x2048x64) ![0, 0, 0] S1x2048x64.size inb_S1x2048x64_S1x2048x64_0_0_0
abbrev r1_1 : Rect S1x64x64 := Rect.unit (s := S1x64x64) ![0, 0, 0] S1x64x64.size inb_S1x64x64_S1x64x64_0_0_0
abbrev r1_2 : Rect S1024x64 := Rect.unit (s := S1024x64) ![0, 0] S1024x64.size inb_S1024x64_S1024x64_0_0
abbrev r1_3 : Rect S1x2048x1024 := Rect.unit (s := S1x2048x1024) ![0, 0, 0] S1x2048x1024.size inb_S1x2048x1024_S1x2048x1024_0_0_0

/-! ## What the body leaves in the output block -/

/-- The output block after the body, from the three input blocks: its one store, over the whole block. -/
def out1_3 (x0 : Vec F S1x2048x64 .f32) (x1 : Vec F S1x64x64 .f32) (x2 : Vec F S1024x64 .f32) : Vec F S1x2048x1024 .f32 :=
  View.canon [⟨r1_3, k1_pay1 (View.ld x0 r1_0) (View.ld x1 r1_1) (View.ld x2 r1_2)⟩]

/-- The one store covers the block. -/
theorem cover1_3 (p0 : Vec F S1x2048x1024 .f32) (y : S1x2048x1024.Idx) :
    ∃ pc ∈ ([⟨r1_3, p0⟩] : List (View.Piece (Elt F) S1x2048x1024 .f32)), y ∈ pc.1.set :=
  View.cover_of_tiled [⟨r1_3, p0⟩] S1x2048x1024.size (by rfl) y

/-! ## The body's triple -/

set_option maxHeartbeats 1000000 in
/-- On whole staging buffers, the three inputs' at contents `x0`, `x1`, `x2` and the output's at anything, the body runs
    to the inputs' as they were and the output's at `out1_3 x0 x1 x2`. -/
theorem sound_kernel1 (c : Dev nD) (E : Set ℕ) (i : grid1.Coords)
    (arg2 : Memref sig .tc .vmem S1x2048x64 .f32) (harg2 : arg2.IsWhole) (arg3 : Memref sig .tc .vmem S1x64x64 .f32) (harg3 : arg3.IsWhole)
    (arg4 : Memref sig .tc .vmem S1024x64 .f32) (harg4 : arg4.IsWhole) (arg5 : Memref sig .tc .vmem S1x2048x1024 .f32) (harg5 : arg5.IsWhole)
    (x0 : Vec F S1x2048x64 .f32) (x1 : Vec F S1x64x64 .f32) (x2 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__context_kernel i arg2 harg2 arg3 harg3 arg4 harg4 arg5 harg5) K := by
  simp only [cc1__context_kernel_eq_skeleton]; unfold cc1__context_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pallas_call on core `c`: the arrays as the region finds them; after the body at
    point `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: the two pallas_calls one after the other, from the launch to the return. Between them the
  buffers' contents are a fold from the launch memory: after the first call its two result arrays hold what its write-backs
  leave (the tiles' queries; each batch's accumulated energy) and every other buffer is as launched; after the second its
  result array holds what its write-backs leave. Every weakly fair execution terminates, and at the end every buffer that
  outlives the kernels holds the fold's last contents: that gives the frame (the arguments are never written) and names
  the result for the value claim.
-/
import proofs.«129314_j39986145526411_1_alg».proof.Proof.K.R0
import proofs.«129314_j39986145526411_1_alg».proof.Proof.K.R1
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first call's entry). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- After the first call: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second call: its arrays at what its write-backs leave, every other buffer as it entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched: a call reads an argument through an input window or does not touch it -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg2 (c : Dev nD) : W1 m c (Proc.devRef .tc main_arg2) = m ((c : Thread nD τ).loc main_arg2) :=
  (W1_arr m c 2).trans (((dat0 (V0 m) c).arrAt_in 2 rfl _).trans (A_eq0 (V0 m) c 2))
theorem W1_main_arg3 (c : Dev nD) : W1 m c (Proc.devRef .tc main_arg3) = m ((c : Thread nD τ).loc main_arg3) :=
  (W1_arr m c 3).trans (((dat0 (V0 m) c).arrAt_in 3 rfl _).trans (A_eq0 (V0 m) c 3))
theorem W1_main_arg4 (c : Dev nD) : W1 m c (Proc.devRef .tc main_arg4) = m ((c : Thread nD τ).loc main_arg4) :=
  W1_of_ne m c main_arg4 (by decide)

theorem W2_main_arg0 (c : Dev nD) : W2 m c (Proc.devRef .tc main_arg0) = m ((c : Thread nD τ).loc main_arg0) :=
  (W2_of_ne m c main_arg0 (by decide)).trans (W1_main_arg0 m c)
theorem W2_main_arg1 (c : Dev nD) : W2 m c (Proc.devRef .tc main_arg1) = m ((c : Thread nD τ).loc main_arg1) :=
  (W2_of_ne m c main_arg1 (by decide)).trans (W1_main_arg1 m c)
theorem W2_main_arg2 (c : Dev nD) : W2 m c (Proc.devRef .tc main_arg2) = m ((c : Thread nD τ).loc main_arg2) :=
  (W2_of_ne m c main_arg2 (by decide)).trans (W1_main_arg2 m c)
theorem W2_main_arg3 (c : Dev nD) : W2 m c (Proc.devRef .tc main_arg3) = m ((c : Thread nD τ).loc main_arg3) :=
  (W2_of_ne m c main_arg3 (by decide)).trans (W1_main_arg3 m c)
theorem W2_main_arg4 (c : Dev nD) : W2 m c (Proc.devRef .tc main_arg4) = m ((c : Thread nD τ).loc main_arg4) :=
  (W2_arr m c 2).trans (((dat1 (V1 m) c).arrAt_in 2 rfl _).trans ((A_eq1 (V1 m) c 2).trans (W1_main_arg4 m c)))
/-- The result array at the end is what the second call's write-backs leave. -/
theorem W2_main_v1 (c : Dev nD) : W2 m c (Proc.devRef .tc main_v1) = (dat1 (V1 m) c).arrAt 3 cfg1.N := W2_arr m c 3

/-! ## The proof data family and the thread state -/

/-- No pallas_call has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first call: entered from every unscoped buffer at the launch contents, left at `W1`. Its arrays are split out of
    the unscoped buffers and put back at the exit contents; the generator register goes into the invariant and comes out;
    the invariant starts as the plain one and ends, the accumulator's contents forgotten, as the plain one. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    refine (hout0 (V0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W1`, left at `W2`, which the launch reads at the end. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's two segments in order. -/
abbrev segs : List (Pipeline.Seg (pcfgs (F := F)) admH (pdats m) () defs₀ 𝒱₀ L lv) :=
  [ .region (reg0 m), .region (reg1 m) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and at the
    end every buffer that outlives the kernels holds the fold's last contents `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME, at any instance: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

/-- The run with the result named: the result array ends at what the second call's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

end Cert.Kernel.Hand

end
-- ==== Proof.KI.R0.lean ====
/-
  The first pallas_call (projections and energy) of the program, at a parameter `V`: the buffers' contents when the region
  is entered. At grid point `t = 4·b + n` the body reads a 2048-row tile `X` of the input (batch `b`, tile `n`) and the
  three projection matrices, stores the tile's queries `X · Wqᵀ` over its first output block, adds `(X · Wkᵀ)ᵀ · (X · Wvᵀ)`
  into a 64×64 scratch accumulator — reset to zero first when `n = 0` — and stores the accumulator over its second output
  block, which is written back when the batch's last tile is done. The accumulator is carried from point to point: after point
  `t` it holds the sum over the batch's tiles `0 … n`, stated here by recursion on the point.
-/
import proofs.«129314_j39986145526411_1_alg».proof.Proof.Gen.KernelIdeal.Launch
import proofs.«129314_j39986145526411_1_alg».proof.Proof.Gen.KernelIdeal.Skeleton
import proofs.«129314_j39986145526411_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Each projection matrix's staging buffer holds the whole matrix at every point: fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch: the accumulator is reset at the first tile of a batch -/

/-- The condition of the body's one branch, from the grid coordinates: the tile index is zero. -/
abbrev cond0 (i : grid0.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-! ## What the body computes -/

/-- The zero accumulator. -/
abbrev zero0 : Vec F S64x64 .f32 := k0_pay1
/-- The queries of a tile: what the body stores over its first output block. -/
abbrev out0_4 (x0 : Vec F S1x2048x1024 .f32) (x1 : Vec F S64x1024 .f32) : Vec F S1x2048x64 .f32 := k0_pay3 x0 x1
/-- The accumulator after the body, from the tile, the key and value projections and the accumulator `s` the body adds into. -/
abbrev acc0 (x0 : Vec F S1x2048x1024 .f32) (x2 x3 : Vec F S64x1024 .f32) (s : Vec F S64x64 .f32) : Vec F S64x64 .f32 := k0_pay4 x0 x2 x3 s
/-- The accumulator as the body stores it over its second output block. -/
abbrev out0_5 (s : Vec F S64x64 .f32) : Vec F S1x64x64 .f32 := k0_pay5 s

theorem hz2 : (![0, 0] : Fin 2 → ℕ) = fun _ => 0 := by funext a; fin_cases a <;> rfl
theorem hz3 : (![0, 0, 0] : Fin 3 → ℕ) = fun _ => 0 := by funext a; fin_cases a <;> rfl

/-- The contents read back after stores of which the LAST covered the whole buffer are that store's payload. -/
theorem read_writes_cons_unit {Val : EltTy → Type} [∀ e, Nonempty (Val e)] {S : Shape} {e : EltTy} {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of the whole buffer after stores of which the LAST covered the whole buffer reads that store's payload. -/
theorem readCov_cons_unit {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The body's triple, in its two cases -/

set_option maxHeartbeats 2000000 in
/-- At the first tile of a batch: the accumulator, at anything, is zeroed first. -/
theorem sound_kernel0_first (c : Dev nD) (E : Set ℕ) (i : grid0.Coords) (hc : cond0 i)
    (arg2 : Memref sig .tc .vmem S1x2048x1024 .f32) (harg2 : arg2.IsWhole) (arg3 : Memref sig .tc .vmem S64x1024 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x2048x64 .f32) (harg6 : arg6.IsWhole) (arg7 : Memref sig .tc .vmem S1x64x64 .f32) (harg7 : arg7.IsWhole)
    (arg8 : Memref sig .tc .vmem S64x64 .f32) (harg8 : arg8.IsWhole)
    (x0 : Vec F S1x2048x1024 .f32) (x1 x2 x3 : Vec F S64x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1)
            ∗ owns (c : Thread nD τ) arg7 fullShare (out0_5 (acc0 x0 x2 x3 zero0))
            ∗ owns (c : Thread nD τ) arg8 fullShare (acc0 x0 x2 x3 zero0)) -∗ K ⟨⟩))
      ⊢ wp frame (wpE (defs₀ (F := F)) Variants.none c none) E (cc0__proj_energy_kernel i arg2 harg2 arg3 harg3 arg4 harg4 arg5 harg5 arg6 harg6 arg7 harg7 arg8 harg8) K := by
  simp only [cc0__proj_energy_kernel_eq_skeleton]; unfold cc0__proj_energy_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_unit _ _ hz3 _ _ _).trans ?_
    simp only [View.readAt_eq_ld, View.ld_unit_zero (S := S1x2048x1024) hz3, View.ld_unit_zero (S := S64x1024) hz2]
  isplitl [H5]
  · iexists _; isplitr
    swap; · iexact H5
    ipureintro
    refine (read_writes_cons_unit _ _ hz3 _ _ _).trans ?_
    simp only [View.readAt_eq_ld, View.ld_unit_zero (S := S1x2048x1024) hz3, View.ld_unit_zero (S := S64x1024) hz2,
      readCov_cons_unit (S := S64x64) _ hz2, View.readCov_unit_zero (S := S64x64) _ hz2]
  · iexists _; isplitr
    swap; · iexact H6
    ipureintro
    refine (read_writes_cons_unit _ _ hz2 _ _ _).trans ?_
    simp only [View.readAt_eq_ld, View.ld_unit_zero (S := S1x2048x1024) hz3, View.ld_unit_zero (S := S64x1024) hz2,
      readCov_cons_unit (S := S64x64) _ hz2, View.readCov_unit_zero (S := S64x64) _ hz2]

set_option maxHeartbeats 2000000 in
/-- At a later tile of a batch: the accumulator, at contents `s`, is added into. -/
theorem sound_kernel0_next (c : Dev nD) (E : Set ℕ) (i : grid0.Coords) (hc : ¬cond0 i)
    (arg2 : Memref sig .tc .vmem S1x2048x1024 .f32) (harg2 : arg2.IsWhole) (arg3 : Memref sig .tc .vmem S64x1024 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x2048x64 .f32) (harg6 : arg6.IsWhole) (arg7 : Memref sig .tc .vmem S1x64x64 .f32) (harg7 : arg7.IsWhole)
    (arg8 : Memref sig .tc .vmem S64x64 .f32) (harg8 : arg8.IsWhole)
    (x0 : Vec F S1x2048x1024 .f32) (x1 x2 x3 : Vec F S64x1024 .f32) (s : Vec F S64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1)
            ∗ owns (c : Thread nD τ) arg7 fullShare (out0_5 (acc0 x0 x2 x3 s))
            ∗ owns (c : Thread nD τ) arg8 fullShare (acc0 x0 x2 x3 s)) -∗ K ⟨⟩))
      ⊢ wp frame (wpE (defs₀ (F := F)) Variants.none c none) E (cc0__proj_energy_kernel i arg2 harg2 arg3 harg3 arg4 harg4 arg5 harg5 arg6 harg6 arg7 harg7 arg8 harg8) K := by
  simp only [cc0__proj_energy_kernel_eq_skeleton]; unfold cc0__proj_energy_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0; subst hf1; subst hf2; subst hf3; subst hf6
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_unit _ _ hz3 _ _ _).trans ?_
    simp only [View.readAt_eq_ld, View.ld_unit_zero (S := S1x2048x1024) hz3, View.ld_unit_zero (S := S64x1024) hz2]
  isplitl [H5]
  · iexists _; isplitr
    swap; · iexact H5
    ipureintro
    refine (read_writes_cons_unit _ _ hz3 _ _ _).trans ?_
    simp only [View.readAt_eq_ld, View.ld_unit_zero (S := S1x2048x1024) hz3, View.ld_unit_zero (S := S64x1024) hz2,
      View.ld_unit_zero (S := S64x64) hz2, readCov_cons_unit (S := S64x64) _ hz2, View.readCov_unit_zero (S := S64x64) _ hz2]
  · iexists _; isplitr
    swap; · iexact H6
    ipureintro
    refine (read_writes_cons_unit _ _ hz2 _ _ _).trans ?_
    simp only [View.readAt_eq_ld, View.ld_unit_zero (S := S1x2048x1024) hz3, View.ld_unit_zero (S := S64x1024) hz2,
      View.ld_unit_zero (S := S64x64) hz2, readCov_cons_unit (S := S64x64) _ hz2, View.readCov_unit_zero (S := S64x64) _ hz2]

/-! ## The accumulator, point by point -/

/-- The accumulator after point `n`: at the first tile of a batch the tile's product over zero, at a later tile over what
    the point before left. -/
def sc0 (c : Dev nD) : (n : ℕ) → n < cfg0.N → Vec F S64x64 .f32
  | 0, h => acc0 (iblk0 V c 0 ⟨0, h⟩) (iblk0 V c 2 ⟨0, h⟩) (iblk0 V c 3 ⟨0, h⟩) zero0
  | n + 1, h =>
    if (n + 1) % 4 = 0 then acc0 (iblk0 V c 0 ⟨n + 1, h⟩) (iblk0 V c 2 ⟨n + 1, h⟩) (iblk0 V c 3 ⟨n + 1, h⟩) zero0
    else acc0 (iblk0 V c 0 ⟨n + 1, h⟩) (iblk0 V c 2 ⟨n + 1, h⟩) (iblk0 V c 3 ⟨n + 1, h⟩) (sc0 c n (Nat.lt_of_succ_lt h))

/-- At the first tile of a batch the accumulator starts from zero. -/
theorem sc0_reset (c : Dev nD) (t : Fin cfg0.N) (h0 : t.val % 4 = 0) :
    sc0 V c t.val t.isLt = acc0 (iblk0 V c 0 t) (iblk0 V c 2 t) (iblk0 V c 3 t) zero0 := by
  obtain ⟨n, hn⟩ := t
  cases n with
  | zero => rfl
  | succ n => simp only [sc0]; rw [if_pos h0]

/-- At a later tile it adds into what the point before left. -/
theorem sc0_step (c : Dev nD) (t : Fin cfg0.N) (h0 : ¬t.val % 4 = 0) :
    sc0 V c t.val t.isLt = acc0 (iblk0 V c 0 t) (iblk0 V c 2 t) (iblk0 V c 3 t)
      (sc0 V c (t.val - 1) (Nat.lt_of_le_of_lt (Nat.sub_le _ _) t.isLt)) := by
  obtain ⟨n, hn⟩ := t
  cases n with
  | zero => exact absurd rfl h0
  | succ n => simp only [sc0]; rw [if_neg h0]; rfl

/-! ## The invariant: the accumulator's contents are carried -/

/-- The scratch accumulator as a memref. -/
abbrev scM0 : Memref sig .tc .vmem S64x64 .f32 := Memref.whole cc0_scratch0

/-- The core's other scoped buffers that this pallas_call does not stage: the second pallas_call's staging buffers, each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's plain invariant with the accumulator held as a memref at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; rfl

/-- Before the first point the plain invariant; after point `n` the accumulator at that point's contents, the rest as it was. -/
def PhiS0 (c : Dev nD) : (n : ℕ) → n ≤ cfg0.N → sProp 𝕄
  | 0, _ => Pipeline.ΦA spec0 c
  | n + 1, hn => iprop(iprop(owns (c : Thread nD τ) scM0 fullShare (sc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (sc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (sc0 V c (n - 1) (by omega)) ∗ rest0 c) ∗ (∃ r, prngReg c r)) := by
  cases n with
  | zero => exact absurd rfl hz
  | succ n => rfl

/-! ## The pipeline's proof data -/

/-- The proof data of the first pallas_call on core `c`: the arrays as the region finds them; after the body at point `t`
    each input's buffer at its block, the first output's at the tile's queries, the second's at the accumulator after the
    point; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (sc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (sc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; the closed form says whether the point starts a batch; the
    invariant hands the body the accumulator at what the point before left (at anything before the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5]
  by_cases h0 : t.val % 4 = 0
  · rw [sc0_reset V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel0_first c Set.univ (grid0.coords t) ((hcond0 t).mpr h0) _ _ _ _ _ _ _ _ _ _ _ _ _ _
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel0_first c Set.univ (grid0.coords t) ((hcond0 t).mpr h0) _ _ _ _ _ _ _ _ _ _ _ _ _ _
        (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexists _; iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [sc0_step V c t h0]
    have hz : t.val ≠ 0 := fun e => h0 (by rw [e])
    rw [PhiS0_castSucc V c t, PhiS0_pos V c _ _ hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel0_next c Set.univ (grid0.coords t) (fun h => h0 ((hcond0 t).mp h)) _ _ _ _ _ _ _ _ _ _ _ _ _ _
      (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.KI.R1.lean ====
/-
  The second pallas_call (the context kernel) of the program, at a parameter `V`: the buffers' contents when the region is
  entered. At grid point `t = 4·b + n` the body reads a 2048-row tile `Q` of the projected queries (batch `b`, tile `n`),
  the batch's 64×64 energy matrix `E` and the whole output projection `Wo`, and stores `((Q · E) · s) · Woᵀ` over its
  whole output block, `s` the scale constant. Nothing is kept between points: the body's result is one function of the
  three blocks it loads.
-/
import proofs.«129314_j39986145526411_1_alg».proof.Proof.Gen.KernelIdeal.Launch
import proofs.«129314_j39986145526411_1_alg».proof.Proof.Gen.KernelIdeal.Skeleton
import proofs.«129314_j39986145526411_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The energy matrix's staging buffer holds its block at every point: fetched when the batch changes, kept in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output projection's staging buffer holds the whole matrix at every point: fetched once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x2048x64 := Rect.unit (s := S1x2048x64) ![0, 0, 0] S1x2048x64.size inb_S1x2048x64_S1x2048x64_0_0_0
abbrev r1_1 : Rect S1x64x64 := Rect.unit (s := S1x64x64) ![0, 0, 0] S1x64x64.size inb_S1x64x64_S1x64x64_0_0_0
abbrev r1_2 : Rect S1024x64 := Rect.unit (s := S1024x64) ![0, 0] S1024x64.size inb_S1024x64_S1024x64_0_0
abbrev r1_3 : Rect S1x2048x1024 := Rect.unit (s := S1x2048x1024) ![0, 0, 0] S1x2048x1024.size inb_S1x2048x1024_S1x2048x1024_0_0_0

/-! ## What the body leaves in the output block -/

/-- The output block after the body, from the three input blocks: its one store, over the whole block. -/
def out1_3 (x0 : Vec F S1x2048x64 .f32) (x1 : Vec F S1x64x64 .f32) (x2 : Vec F S1024x64 .f32) : Vec F S1x2048x1024 .f32 :=
  View.canon [⟨r1_3, k1_pay1 (View.ld x0 r1_0) (View.ld x1 r1_1) (View.ld x2 r1_2)⟩]

/-- The one store covers the block. -/
theorem cover1_3 (p0 : Vec F S1x2048x1024 .f32) (y : S1x2048x1024.Idx) :
    ∃ pc ∈ ([⟨r1_3, p0⟩] : List (View.Piece (Elt F) S1x2048x1024 .f32)), y ∈ pc.1.set :=
  View.cover_of_tiled [⟨r1_3, p0⟩] S1x2048x1024.size (by rfl) y

/-! ## The body's triple -/

set_option maxHeartbeats 1000000 in
/-- On whole staging buffers, the three inputs' at contents `x0`, `x1`, `x2` and the output's at anything, the body runs
    to the inputs' as they were and the output's at `out1_3 x0 x1 x2`. -/
theorem sound_kernel1 (c : Dev nD) (E : Set ℕ) (i : grid1.Coords)
    (arg2 : Memref sig .tc .vmem S1x2048x64 .f32) (harg2 : arg2.IsWhole) (arg3 : Memref sig .tc .vmem S1x64x64 .f32) (harg3 : arg3.IsWhole)
    (arg4 : Memref sig .tc .vmem S1024x64 .f32) (harg4 : arg4.IsWhole) (arg5 : Memref sig .tc .vmem S1x2048x1024 .f32) (harg5 : arg5.IsWhole)
    (x0 : Vec F S1x2048x64 .f32) (x1 : Vec F S1x64x64 .f32) (x2 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__context_kernel i arg2 harg2 arg3 harg3 arg4 harg4 arg5 harg5) K := by
  simp only [cc1__context_kernel_eq_skeleton]; unfold cc1__context_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pallas_call on core `c`: the arrays as the region finds them; after the body at
    point `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: the two pallas_calls one after the other, from the launch to the return. Between them the
  buffers' contents are a fold from the launch memory: after the first call its two result arrays hold what its write-backs
  leave (the tiles' queries; each batch's accumulated energy) and every other buffer is as launched; after the second its
  result array holds what its write-backs leave. Every weakly fair execution terminates, and at the end every buffer that
  outlives the kernels holds the fold's last contents: that gives the frame (the arguments are never written) and names
  the result for the value claim.
-/
import proofs.«129314_j39986145526411_1_alg».proof.Proof.KI.R0
import proofs.«129314_j39986145526411_1_alg».proof.Proof.KI.R1
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first call's entry). -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- After the first call: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second call: its arrays at what its write-backs leave, every other buffer as it entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The arguments end as launched: a call reads an argument through an input window or does not touch it -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg2 (c : Dev nD) : W1 m c (Proc.devRef .tc main_arg2) = m ((c : Thread nD τ).loc main_arg2) :=
  (W1_arr m c 2).trans (((dat0 (V0 m) c).arrAt_in 2 rfl _).trans (A_eq0 (V0 m) c 2))
theorem W1_main_arg3 (c : Dev nD) : W1 m c (Proc.devRef .tc main_arg3) = m ((c : Thread nD τ).loc main_arg3) :=
  (W1_arr m c 3).trans (((dat0 (V0 m) c).arrAt_in 3 rfl _).trans (A_eq0 (V0 m) c 3))
theorem W1_main_arg4 (c : Dev nD) : W1 m c (Proc.devRef .tc main_arg4) = m ((c : Thread nD τ).loc main_arg4) :=
  W1_of_ne m c main_arg4 (by decide)

theorem W2_main_arg0 (c : Dev nD) : W2 m c (Proc.devRef .tc main_arg0) = m ((c : Thread nD τ).loc main_arg0) :=
  (W2_of_ne m c main_arg0 (by decide)).trans (W1_main_arg0 m c)
theorem W2_main_arg1 (c : Dev nD) : W2 m c (Proc.devRef .tc main_arg1) = m ((c : Thread nD τ).loc main_arg1) :=
  (W2_of_ne m c main_arg1 (by decide)).trans (W1_main_arg1 m c)
theorem W2_main_arg2 (c : Dev nD) : W2 m c (Proc.devRef .tc main_arg2) = m ((c : Thread nD τ).loc main_arg2) :=
  (W2_of_ne m c main_arg2 (by decide)).trans (W1_main_arg2 m c)
theorem W2_main_arg3 (c : Dev nD) : W2 m c (Proc.devRef .tc main_arg3) = m ((c : Thread nD τ).loc main_arg3) :=
  (W2_of_ne m c main_arg3 (by decide)).trans (W1_main_arg3 m c)
theorem W2_main_arg4 (c : Dev nD) : W2 m c (Proc.devRef .tc main_arg4) = m ((c : Thread nD τ).loc main_arg4) :=
  (W2_arr m c 2).trans (((dat1 (V1 m) c).arrAt_in 2 rfl _).trans ((A_eq1 (V1 m) c 2).trans (W1_main_arg4 m c)))
/-- The result array at the end is what the second call's write-backs leave. -/
theorem W2_main_v1 (c : Dev nD) : W2 m c (Proc.devRef .tc main_v1) = (dat1 (V1 m) c).arrAt 3 cfg1.N := W2_arr m c 3

/-! ## The proof data family and the thread state -/

/-- No pallas_call has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first call: entered from every unscoped buffer at the launch contents, left at `W1`. Its arrays are split out of
    the unscoped buffers and put back at the exit contents; the generator register goes into the invariant and comes out;
    the invariant starts as the plain one and ends, the accumulator's contents forgotten, as the plain one. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    refine (hout0 (V0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W1`, left at `W2`, which the launch reads at the end. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's two segments in order. -/
abbrev segs : List (Pipeline.Seg (pcfgs (F := F)) admH (pdats m) () defs₀ 𝒱₀ L lv) :=
  [ .region (reg0 m), .region (reg1 m) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and at the
    end every buffer that outlives the kernels holds the fold's last contents `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME, at any instance: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

/-- The run with the result named: the result array ends at what the second call's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

end Cert.KernelIdeal.Hand

end
-- ==== Proof.Spec.lean ====
/-
  The specification both programs are compared with, on the extended reals: linear attention in its "ground" mode.
  For a batch `b`, with `x` the input ([4, 8192, 1024]) and `wq`, `wk`, `wv` ([64, 1024]) and `wo` ([1024, 64]) the weights:
  the projections `P w b n d = Σ_k x[b,n,k] · w[d,k]`; the energy `E b d e = Σ_n K b n d · V b n e`, a sum over the WHOLE
  sequence; the context `C b n e = (Σ_d Q b n d · E b d e) · s` with `s` the scale constant; and the result
  `out[b,n,j] = Σ_e C b n e · wo[j,e]`. Everything is a function of explicit coordinates, so that no lemma has to look
  through a shape's coordinate types.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 8192, 1024]⟩
abbrev SW : Shape := ⟨2, ![64, 1024]⟩
abbrev SO : Shape := ⟨2, ![1024, 64]⟩
abbrev SQ : Shape := ⟨3, ![4, 8192, 64]⟩
abbrev SE : Shape := ⟨3, ![4, 64, 64]⟩

/-- The scale constant `sqrt(3/64)` as both programs spell it: the same 32-bit word, never evaluated. -/
def scale : EReal := Ideal.ofBits .f32 0x3E5DB3D7#32

/-- A projection: row `n` of batch `b` against row `d` of the weight matrix. -/
def proj (x : SX.Idx → EReal) (w : SW.Idx → EReal) (b : Fin 4) (n : Fin 8192) (d : Fin 64) : EReal :=
  ∑ k : Fin 1024, x (ix3 b n k) * w (ix2 d k)

/-- The energy of a batch: keys against values, summed over the whole sequence. -/
def energy (K V : Fin 4 → Fin 8192 → Fin 64 → EReal) (b : Fin 4) (d e : Fin 64) : EReal :=
  ∑ n : Fin 8192, K b n d * V b n e

/-- The context: queries against the batch's energy, then scaled. -/
def ctx (Q : Fin 4 → Fin 8192 → Fin 64 → EReal) (E : Fin 4 → Fin 64 → Fin 64 → EReal) (s : EReal)
    (b : Fin 4) (n : Fin 8192) (e : Fin 64) : EReal :=
  (∑ d : Fin 64, Q b n d * E b d e) * s

/-- The output projection. -/
def outp (C : Fin 4 → Fin 8192 → Fin 64 → EReal) (wo : SO.Idx → EReal) (b : Fin 4) (n : Fin 8192) (j : Fin 1024) : EReal :=
  ∑ e : Fin 64, C b n e * wo (ix2 j e)

/-- The whole result as one function of the five argument arrays. -/
def G (x : SX.Idx → EReal) (wq wk wv : SW.Idx → EReal) (wo : SO.Idx → EReal) : SX.Idx → EReal :=
  fun i => outp (ctx (proj x wq) (energy (proj x wk) (proj x wv)) scale) wo (i 0) (i 1) (i 2)

end Cert.Spec

end
-- ==== Proof.KI.ValueQ.lean ====
/-
  What the program's first kernel call leaves in its first result array: the projected queries, as ONE function of the arrays it reads.

  The region runs over sixteen points `t = 4·b + n`, batch `b` and tile `n` both below four. At point `t` the body holds a
  tile `X` of the input — batch `b`, rows `2048·n … 2048·n + 2047`, all 1024 columns, as a [1, 2048, 1024] block — and the
  whole [64, 1024] matrix `Wq` of query weights. It drops the tile's unit axis, transposes the weights, multiplies the two
  into a zero accumulator, and stores the [2048, 64] product, under a unit axis again, over the block of the first result
  at batch `b`, rows `2048·n …`, which is written back at every point.

  Three steps. First the stored block at an index: a product into zero is the plain sum over the shared axis, the dropped
  and the added unit axis and the transposition only rename coordinates, so entry `(0, r, d)` of the block is
  `Σ_k X[0, r, k] · Wq[d, k]`. Second the blocks as parts of the arrays: a block's coordinate on an axis is the block index
  times the block's size plus the coordinate inside the block, and the block indices at point `t` are `(t / 4, t % 4, 0)`
  for the input tile and for the result block and `(0, 0)` for the weights — sixteen cases, decided once. So entry `(0, r, d)`
  of the block stored at point `t` is `Σ_k x[t / 4, 2048·(t % 4) + r, k] · wq[d, k]`: the specification's projection `proj x wq`
  at the very place of the array that entry is written to. Third the cover: index `(b, n, d)` of the result lies in the
  block of point `4·b + n / 2048`, and every point writes back; later write-backs touch other blocks. Hence after the last
  point the first result is `proj x wq` everywhere.
-/
import proofs.«129314_j39986145526411_1_alg».proof.Proof.KI.R0
import proofs.«129314_j39986145526411_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.TcCoe

/-! ## The tile's product at an index -/

/-- The left operand of the tile's product is read in the result's row. -/
theorem lhs_proj_0 (j : S2048x64.Idx) (q : dot_S2048x1024_S1024x64_S2048x64_1_0_0_1_n_n.contr.Idx) :
    (dot_S2048x1024_S1024x64_S2048x64_1_0_0_1_n_n.lhsIdx j q 0).val = (j 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
/-- … at the summation variable's column. -/
theorem lhs_proj_1 (j : S2048x64.Idx) (q : dot_S2048x1024_S1024x64_S2048x64_1_0_0_1_n_n.contr.Idx) :
    (dot_S2048x1024_S1024x64_S2048x64_1_0_0_1_n_n.lhsIdx j q 1).val = (q ⟨0, by decide⟩).val :=
  dot_S2048x1024_S1024x64_S2048x64_1_0_0_1_n_n.lhsIdx_val_of_single rfl j q
/-- The right operand is read at the summation variable's row, -/
theorem rhs_proj_0 (j : S2048x64.Idx) (q : dot_S2048x1024_S1024x64_S2048x64_1_0_0_1_n_n.contr.Idx) :
    (dot_S2048x1024_S1024x64_S2048x64_1_0_0_1_n_n.rhsIdx j q 0).val = (q ⟨0, by decide⟩).val :=
  dot_S2048x1024_S1024x64_S2048x64_1_0_0_1_n_n.rhsIdx_val_of_single rfl j q
/-- … in the result's column. -/
theorem rhs_proj_1 (j : S2048x64.Idx) (q : dot_S2048x1024_S1024x64_S2048x64_1_0_0_1_n_n.contr.Idx) :
    (dot_S2048x1024_S1024x64_S2048x64_1_0_0_1_n_n.rhsIdx j q 1).val = (j 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A [2048, 1024] by [1024, 64] product accumulated into zero, at row `r` and column `d`: the sum over the 1024 shared
    positions of the products. -/
theorem mm_proj_apply (a : FVec Ideal S2048x1024 .f32) (b : FVec Ideal S1024x64 .f32) (r : Fin 2048) (d : Fin 64) :
    matmul dot_S2048x1024_S1024x64_S2048x64_1_0_0_1_n_n none a b (constant (F := Ideal) S2048x64 .f32 0x00000000#32) (ix2 r d)
      = ∑ k : Fin 1024, a (ix2 r k) * b (ix2 k d) := by
  simp only [matmul]
  rw [Ideal.matmul_constant_zero_apply, ← Equiv.sum_comp (ValueIdx.contrEquiv1 dot_S2048x1024_S1024x64_S2048x64_1_0_0_1_n_n 1024 rfl rfl).symm]
  refine Finset.sum_congr rfl fun k _ => ?_
  have hk := ValueIdx.contrEquiv1_symm_val dot_S2048x1024_S1024x64_S2048x64_1_0_0_1_n_n 1024 rfl rfl k
  have el : dot_S2048x1024_S1024x64_S2048x64_1_0_0_1_n_n.lhsIdx (ix2 r d) ((ValueIdx.contrEquiv1 dot_S2048x1024_S1024x64_S2048x64_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S2048x1024_S1024x64_S2048x64_1_0_0_1_n_n.rhsIdx (ix2 r d) ((ValueIdx.contrEquiv1 dot_S2048x1024_S1024x64_S2048x64_1_0_0_1_n_n 1024 rfl rfl).symm k) = ix2 k d := funext fun a => Fin.ext (by
    match a with
    | ⟨0, _⟩ => exact (rhs_proj_0 _ _).trans hk
    | ⟨1, _⟩ => exact rhs_proj_1 _ _)
  rw [el, er]

/-- The tile viewed as a matrix: the unit batch axis dropped. -/
theorem tile_apply (x0 : Vec Ideal S1x2048x1024 .f32) (r : Fin 2048) (k : Fin 1024) :
    k0_pay2 (F := Ideal) x0 (ix2 r k) = x0 (ix3 (0 : Fin 1) r k) := by
  unfold k0_pay2
  refine (shapeCast_dropUnit_apply ![2048, 1024] x0 _ (ix2 r k)).trans ?_
  refine congrArg x0 (funext fun a => ?_)
  match a with
  | ⟨0, _⟩ => rfl
  | ⟨1, _⟩ => rfl
  | ⟨2, _⟩ => rfl

/-- A weight matrix transposed, at an index. -/
theorem wT_apply (x1 : Vec Ideal S64x1024 .f32) (k : Fin 1024) (d : Fin 64) :
    transpose S1024x64 [1, 0] x1 Facts₀.transposes_S64x1024_p1_0_S1024x64 (ix2 k d) = x1 (ix2 d k) :=
  transpose_apply _ x1 _ (ix2 k d) (ix2 d k) fun b => by
    match b with
    | ⟨0, _⟩ => rfl
    | ⟨1, _⟩ => rfl

/-- WHAT THE BODY STORES OVER ITS FIRST OUTPUT BLOCK, at row `r` and column `d` of the tile: the tile's row `r` against
    row `d` of the query weights. -/
theorem out0_4_apply (x0 : Vec Ideal S1x2048x1024 .f32) (x1 : Vec Ideal S64x1024 .f32) (r : Fin 2048) (d : Fin 64) :
    out0_4 (F := Ideal) x0 x1 (ix3 (0 : Fin 1) r d) = ∑ k : Fin 1024, x0 (ix3 (0 : Fin 1) r k) * x1 (ix2 d k) := by
  unfold out0_4 k0_pay3
  refine (shapeCast_addUnit_apply ![2048, 64] _ _ (ix3 (0 : Fin 1) r d)).trans ?_
  have e : (fun a : Fin 2 => (ix3 (0 : Fin 1) r d) a.succ) = ix2 r d := funext fun a => by
    match a with
    | ⟨0, _⟩ => rfl
    | ⟨1, _⟩ => rfl
  rw [e]
  refine (mm_proj_apply _ _ r d).trans ?_
  refine Finset.sum_congr rfl fun k _ => ?_
  rw [tile_apply, wT_apply]

/-! ## The blocks the body reads and writes, as parts of the arrays -/

variable (V : (c : Dev nD) → (b : Ref sig .tc) → Buf (Elt Ideal) ((c : Thread nD τ).loc b))

/-- The block index maps, decided over the sixteen points: point `t = 4·b + n` reads tile `n` of batch `b` of the input,
    the whole of the query weights, and writes tile `n` of batch `b` of the first result. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

/-- The input tile at point `t`, at row `r` and column `k`: the input at batch `t / 4`, row `2048·(t % 4) + r`. -/
theorem xblk_apply (c : Dev nD) (t : Fin cfg0.N) (r : Fin 2048) (k : Fin 1024) (b : Fin 4) (n : Fin 8192)
    (hb : b.val = t.val / 4) (hn : n.val = 2048 * (t.val % 4) + r.val) :
    (iblk0 V c 0 t : Vec Ideal S1x2048x1024 .f32) (ix3 (0 : Fin 1) r k)
      = (V c main_arg0 : S4x8192x1024.Idx → EReal) (ix3 b n k) := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 2048 + 1 * r.val = n.val; omega
  | ⟨2, _⟩ => show win0_0.index t (2 : Fin 3) * 1024 + 1 * k.val = k.val; omega

/-- The query weights' block at any point is the whole matrix. -/
theorem wblk_apply (c : Dev nD) (t : Fin cfg0.N) (d : Fin 64) (k : Fin 1024) :
    (iblk0 V c 1 t : Vec Ideal S64x1024 .f32) (ix2 d k) = (V c main_arg1 : S64x1024.Idx → EReal) (ix2 d k) := by
  obtain ⟨-, -, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 64 + 1 * d.val = d.val; omega
  | ⟨1, _⟩ => show win0_1.index t (1 : Fin 2) * 1024 + 1 * k.val = k.val; omega

/-! ## From the blocks to the array -/

/-- The projected queries as one function of the two arrays the first result depends on. -/
abbrev queries (c : Dev nD) : S4x8192x64.Idx → EReal :=
  fun i => Cert.Spec.proj (V c main_arg0) (V c main_arg1) (i 0) (i 1) (i 2)

/-- Where point `t`'s output block lies in the first result: batch `t / 4`, rows `2048·(t % 4) …`, every column. -/
theorem oblk_emb (t : Fin cfg0.N) (r : Fin 2048) (d : Fin 64) (b : Fin 4) (n : Fin 8192)
    (hb : b.val = t.val / 4) (hn : n.val = 2048 * (t.val % 4) + r.val) :
    ((cfg0.win 4).blk t).view.emb (ix3 (0 : Fin 1) r d) = (ix3 b n d : S4x8192x64.Idx) := by
  obtain ⟨-, -, -, -, -, e0, e1, e2⟩ := idx_facts0 t
  funext a
  apply Fin.ext
  match a with
  | ⟨0, _⟩ => show win0_4.index t (0 : Fin 3) * 1 + 1 * 0 = b.val; omega
  | ⟨1, _⟩ => show win0_4.index t (1 : Fin 3) * 2048 + 1 * r.val = n.val; omega
  | ⟨2, _⟩ => show win0_4.index t (2 : Fin 3) * 64 + 1 * d.val = d.val; omega

/-- What the body leaves in the first output's staging buffer at point `t`, entry by entry, is the projected queries at
    the entry's place in the array. -/
theorem after0_4_apply (c : Dev nD) (t : Fin cfg0.N) (j : S1x2048x64.Idx) :
    out0_4 (F := Ideal) (iblk0 V c 0 t) (iblk0 V c 1 t) j = queries V c (((cfg0.win 4).blk t).view.emb j) := by
  obtain ⟨z, r, d, rfl⟩ : ∃ (z : Fin 1) (r : Fin 2048) (d : Fin 64), j = ix3 z r d := ⟨j 0, j 1, j 2, eq_ix3 j⟩
  obtain rfl : z = 0 := Subsingleton.elim _ _
  have hN : cfg0.N = 16 := N_0
  have ht : t.val < 16 := hN ▸ t.isLt
  have hb : t.val / 4 < 4 := by omega
  have hn : 2048 * (t.val % 4) + r.val < 8192 := by have := r.isLt; omega
  rw [oblk_emb t r d ⟨t.val / 4, hb⟩ ⟨2048 * (t.val % 4) + r.val, hn⟩ rfl rfl]
  refine (out0_4_apply _ _ r d).trans ?_
  show _ = Cert.Spec.proj (V c main_arg0) (V c main_arg1) ⟨t.val / 4, hb⟩ ⟨2048 * (t.val % 4) + r.val, hn⟩ d
  unfold Cert.Spec.proj
  refine Finset.sum_congr rfl fun k _ => ?_
  rw [xblk_apply V c t r k ⟨t.val / 4, hb⟩ ⟨2048 * (t.val % 4) + r.val, hn⟩ rfl rfl, wblk_apply V c t d k]

/-- WHAT POINT `t` WRITES BACK to the first result is its block of the projected queries. -/
theorem flushed0_4_eq (c : Dev nD) (t : Fin cfg0.N) :
    (dat0 (F := Ideal) V c).flushed 4 t = ((cfg0.win 4).blk t).view.read (Elt Ideal) (queries V c) := by
  show (cfg0.win 4).cut (grid0.coords t) ((dat0 (F := Ideal) V c).after 4 t) = _
  rw [after0_4]
  funext j
  exact after0_4_apply V c t j

/-- An index of the first result is in point `t`'s block iff each coordinate is in the block's range on its axis. -/
theorem mem_blk0_4 (t : Fin cfg0.N) (i : S4x8192x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v0_0).slice (win0_4.rect t)).set ↔ _
  rw [View.set_slice_whole, Rect.mem_set_unit]
  exact Iff.rfl

/-- Every index of the first result is in the block of the point `4·b + n / 2048`, and every point writes back. -/
theorem cover0_4 (i : S4x8192x64.Idx) :
    ∃ t : Fin cfg0.N, (cfg0.win 4).flush t = true ∧ i ∈ ((cfg0.win 4).blk t).view.set := by
  have hN : cfg0.N = 16 := N_0
  have h0 : (i 0).val < 4 := (i 0).isLt
  have h1 : (i 1).val < 8192 := (i 1).isLt
  have h2 : (i 2).val < 64 := (i 2).isLt
  refine ⟨⟨4 * (i 0).val + (i 1).val / 2048, by omega⟩, flush0_4 _, ?_⟩
  rw [mem_blk0_4]
  obtain ⟨-, -, -, -, -, e0, e1, e2⟩ := idx_facts0 ⟨4 * (i 0).val + (i 1).val / 2048, by omega⟩
  intro a
  match a with
  | ⟨0, _⟩ =>
    show win0_4.index _ (0 : Fin 3) * 1 ≤ (i 0).val ∧ (i 0).val < win0_4.index _ (0 : Fin 3) * 1 + 1
    rw [e0]; show (4 * (i 0).val + (i 1).val / 2048) / 4 * 1 ≤ (i 0).val ∧ (i 0).val < (4 * (i 0).val + (i 1).val / 2048) / 4 * 1 + 1
    omega
  | ⟨1, _⟩ =>
    show win0_4.index _ (1 : Fin 3) * 2048 ≤ (i 1).val ∧ (i 1).val < win0_4.index _ (1 : Fin 3) * 2048 + 2048
    rw [e1]; show (4 * (i 0).val + (i 1).val / 2048) % 4 * 2048 ≤ (i 1).val ∧ (i 1).val < (4 * (i 0).val + (i 1).val / 2048) % 4 * 2048 + 2048
    omega
  | ⟨2, _⟩ =>
    show win0_4.index _ (2 : Fin 3) * 64 ≤ (i 2).val ∧ (i 2).val < win0_4.index _ (2 : Fin 3) * 64 + 64
    rw [e2]; omega

/-- THE FIRST RESULT AFTER THE REGION: the projected queries, as one function of the input and the query weights as the
    region finds them. -/
theorem final0_4 (V : (c : Dev nD) → (b : Ref sig .tc) → Buf (Elt Ideal) ((c : Thread nD τ).loc b)) (c : Dev nD) :
    (dat0 (F := Ideal) V c).arrAt 4 cfg0.N = fun i => Cert.Spec.proj (V c main_arg0) (V c main_arg1) (i 0) (i 1) (i 2) :=
  (dat0 (F := Ideal) V c).arrAt_eq_of_cover 4 (queries V c) (fun t _ => flushed0_4_eq V c t) cover0_4

end Cert.KernelIdeal.Hand

end
-- ==== Proof.LibSumTiles.lean ====
/-
  A sum over consecutive naturals, cut into tiles of equal length.

  The naturals below `T·R` are the numbers `R·s + r` with `s` below `T` and `r` below `R`, each exactly once, and in a
  commutative additive monoid a finite sum may be taken in any grouping. So summing `f` over the `T·R` naturals is summing,
  tile by tile, the `R` values of `f` on tile `s`. By induction on the number of tiles: with no tile both sums are empty;
  one more tile appends the `R` naturals `T·R, …, T·R + R - 1` to the first `T·R`, and a sum over the first `a + b`
  naturals is the sum over the first `a` plus the sum over the next `b`.
-/
import Mathlib.Algebra.BigOperators.Group.Finset.Basic
import Mathlib.Data.Fintype.BigOperators

open scoped BigOperators

namespace Cert.SumTiles

/-- The same with every sum over an initial segment of the naturals: the sum over the first `T·R` naturals is the sum
    over the tiles `s < T` of the sum over the places `r < R` of `f (R·s + r)`. -/
theorem sum_range_range_tiles {β : Type*} [AddCommMonoid β] (T R : ℕ) (f : ℕ → β) :
    ∑ s ∈ Finset.range T, ∑ r ∈ Finset.range R, f (R * s + r) = ∑ n ∈ Finset.range (T * R), f n := by
  induction T with
  | zero => simp
  | succ T ih =>
    rw [Finset.sum_range_succ, ih, Nat.add_mul, Nat.one_mul, Finset.sum_range_add, Nat.mul_comm R T]

/-- A sum over T·R consecutive naturals, tile by tile: T tiles of R. -/
theorem sum_range_tiles {β : Type*} [AddCommMonoid β] (T R : ℕ) (f : ℕ → β) :
    ∑ s ∈ Finset.range T, ∑ r : Fin R, f (R * s + r.val) = ∑ n : Fin (T * R), f n.val := by
  rw [Fin.sum_univ_eq_sum_range f (T * R), ← sum_range_range_tiles T R f]
  refine Finset.sum_congr rfl fun s _ => ?_
  exact Fin.sum_univ_eq_sum_range (fun r => f (R * s + r)) R

end Cert.SumTiles
-- ==== Proof.KI.ValueE.lean ====
/-
  What the program's first kernel call leaves in its second result array: every batch's energy matrix, as ONE function of
  the arrays the call reads.

  The region runs over sixteen points `t = 4·b + n`, batch `b` and tile `n` both below four. It keeps a 64 × 64
  accumulator that lives from point to point. At point `t` the body holds the tile `X` of the input — batch `b`, rows
  `2048·n … 2048·n + 2047`, all 1024 columns — and the whole key and value matrices `Wk`, `Wv` ([64, 1024] each). It
  forms the tile's keys `K = X · Wkᵀ` and values `V = X · Wvᵀ` ([2048, 64] each) and adds `Kᵀ · V` into the accumulator,
  which it first sets to zero when `n = 0`; the accumulator, under a unit axis, is stored over the block of the second
  result at batch `b`, and that block is written back when `n = 3`.

  Four steps. First the body at an index: a product into zero is the plain sum over the shared axis and the transpositions
  and the dropped unit axis only rename coordinates, so the body adds to entry `(d, e)` of the accumulator
  `Σ_{r < 2048} (Σ_k X[0, r, k] · Wk[d, k]) · (Σ_k X[0, r, k] · Wv[e, k])`, and the zero accumulator reads `0`. Second the
  fold: an accumulator that is reset at the multiples of four and stepped from the point before elsewhere is, after point
  `4·b + 3`, zero plus the four addends of points `4·b … 4·b + 3`. Third the blocks as parts of the arrays: a block's
  coordinate on an axis is the block index times the block's size plus the coordinate inside the block, and the block
  indices at point `t` are `(t / 4, t % 4, 0)` for the input, `(0, 0)` for the two matrices and `(t / 4, 0, 0)` for the
  energy — sixteen cases, decided once. So the addend of point `4·b + s` is `Σ_{r < 2048} key[b, 2048·s + r, d] ·
  value[b, 2048·s + r, e]` with `key` and `value` the specification's projections of the whole input, and four runs of
  2048 consecutive rows are the 8192 rows of the sequence: a finite sum regrouped in an additive commutative monoid, with no
  distributivity and no finiteness asked of the extended reals. Fourth the cover: index `(b, d, e)` of the second result
  lies in the block of point `4·b + 3`, which writes back; the other batches' write-backs touch other blocks. Hence after
  the last point the second result is the specification's energy everywhere.
-/
import proofs.«129314_j39986145526411_1_alg».proof.Proof.KI.R0
import proofs.«129314_j39986145526411_1_alg».proof.Proof.KI.ValueQ
import proofs.«129314_j39986145526411_1_alg».proof.Proof.Spec
import proofs.«129314_j39986145526411_1_alg».proof.Proof.LibSumTiles
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.ValueIdx Idealize.ShloMosaic.TcCoe

namespace Energy

theorem lhs_energy_0 (i : S64x64.Idx) (q : dot_S64x2048_S2048x64_S64x64_1_0_0_1_n_n.contr.Idx) :
    (dot_S64x2048_S2048x64_S64x64_1_0_0_1_n_n.lhsIdx i q 0).val = (i 0).val := by
  unfold DotDims.lhsIdx
  rw [dif_neg (show ¬(0 : Fin S64x2048.rank) ∈ dot_S64x2048_S2048x64_S64x64_1_0_0_1_n_n.lhsBatch by decide), dif_pos (show (0 : Fin S64x2048.rank) ∈ dot_S64x2048_S2048x64_S64x64_1_0_0_1_n_n.lhsNonContracting by decide)]
  rfl
theorem lhs_energy_1 (i : S64x64.Idx) (q : dot_S64x2048_S2048x64_S64x64_1_0_0_1_n_n.contr.Idx) :
    (dot_S64x2048_S2048x64_S64x64_1_0_0_1_n_n.lhsIdx i q 1).val = (q ⟨0, by decide⟩).val :=
  dot_S64x2048_S2048x64_S64x64_1_0_0_1_n_n.lhsIdx_val_of_single rfl i q
theorem rhs_energy_0 (i : S64x64.Idx) (q : dot_S64x2048_S2048x64_S64x64_1_0_0_1_n_n.contr.Idx) :
    (dot_S64x2048_S2048x64_S64x64_1_0_0_1_n_n.rhsIdx i q 0).val = (q ⟨0, by decide⟩).val :=
  dot_S64x2048_S2048x64_S64x64_1_0_0_1_n_n.rhsIdx_val_of_single rfl i q
theorem rhs_energy_1 (i : S64x64.Idx) (q : dot_S64x2048_S2048x64_S64x64_1_0_0_1_n_n.contr.Idx) :
    (dot_S64x2048_S2048x64_S64x64_1_0_0_1_n_n.rhsIdx i q 1).val = (i 1).val := by
  unfold DotDims.rhsIdx
  rw [dif_neg (show ¬(1 : Fin S2048x64.rank) ∈ dot_S64x2048_S2048x64_S64x64_1_0_0_1_n_n.rhsBatch by decide), dif_pos (show (1 : Fin S2048x64.rank) ∈ dot_S64x2048_S2048x64_S64x64_1_0_0_1_n_n.rhsNonContracting by decide)]
  rfl

/-- A [64, 2048] matrix times a [2048, 64] matrix, into zero: entry (d, e) is the sum over the tile's 2048 rows. -/
theorem matmul_energy_apply (A : FVec Ideal S64x2048 .f32) (B : FVec Ideal S2048x64 .f32) (d e : Fin 64) :
    matmul (F := Ideal) (φ₁ := .f32) (φ₂ := .f32) dot_S64x2048_S2048x64_S64x64_1_0_0_1_n_n none A B (constant S64x64 .f32 0x00000000#32) (ix2 d e)
      = ∑ r : Fin 2048, A (ix2 d r) * B (ix2 r e) := by
  refine (Ideal.matmul_constant_zero_apply dot_S64x2048_S2048x64_S64x64_1_0_0_1_n_n none A B (ix2 d e)).trans ?_
  rw [← Equiv.sum_comp (contrEquiv1 dot_S64x2048_S2048x64_S64x64_1_0_0_1_n_n 2048 rfl rfl).symm]
  refine Finset.sum_congr rfl fun r _ => ?_
  have hr := contrEquiv1_symm_val dot_S64x2048_S2048x64_S64x64_1_0_0_1_n_n 2048 rfl rfl r
  have el : dot_S64x2048_S2048x64_S64x64_1_0_0_1_n_n.lhsIdx (ix2 d e) ((contrEquiv1 dot_S64x2048_S2048x64_S64x64_1_0_0_1_n_n 2048 rfl rfl).symm r) = ix2 d r := funext fun a => Fin.ext (by
    match a with
    | ⟨0, _⟩ => exact lhs_energy_0 _ _
    | ⟨1, _⟩ => exact (lhs_energy_1 _ _).trans hr)
  have er : dot_S64x2048_S2048x64_S64x64_1_0_0_1_n_n.rhsIdx (ix2 d e) ((contrEquiv1 dot_S64x2048_S2048x64_S64x64_1_0_0_1_n_n 2048 rfl rfl).symm r) = ix2 r e := funext fun a => Fin.ext (by
    match a with
    | ⟨0, _⟩ => exact (rhs_energy_0 _ _).trans hr
    | ⟨1, _⟩ => exact rhs_energy_1 _ _)
  rw [el, er]

/-- A tile's projection: row `r` of the tile against row `d` of the projection matrix. -/
theorem tile_proj_apply (x0 : Vec Ideal S1x2048x1024 .f32) (w : Vec Ideal S64x1024 .f32) (r : Fin 2048) (d : Fin 64) :
    matmul (F := Ideal) (φ₁ := .f32) (φ₂ := .f32) dot_S2048x1024_S1024x64_S2048x64_1_0_0_1_n_n none (k0_pay2 x0) (transpose S1024x64 [1, 0] w transposes_S64x1024_p1_0_S1024x64)
        (constant S2048x64 .f32 0x00000000#32) (ix2 r d)
      = ∑ k : Fin 1024, x0 (ix3 (0 : Fin 1) r k) * w (ix2 d k) := by
  refine (mm_proj_apply _ _ r d).trans ?_
  exact Finset.sum_congr rfl fun k _ => congrArg₂ (· * ·) (tile_apply x0 r k) (wT_apply w k d)

/-- The accumulator after the body: what it held plus, over the tile's rows, keys times values. -/
theorem acc0_apply (x0 : Vec Ideal S1x2048x1024 .f32) (x2 x3 : Vec Ideal S64x1024 .f32) (s : Vec Ideal S64x64 .f32) (d e : Fin 64) :
    acc0 x0 x2 x3 s (ix2 d e)
      = s (ix2 d e) + ∑ r : Fin 2048, (∑ k : Fin 1024, x0 (ix3 (0 : Fin 1) r k) * x2 (ix2 d k)) * (∑ k : Fin 1024, x0 (ix3 (0 : Fin 1) r k) * x3 (ix2 e k)) := by
  unfold acc0 k0_pay4
  refine (congrFun (shapeCast_self _ shapeCasts_S64x64_S64x64) (ix2 d e)).trans ?_
  refine (addf_apply _ _ (ix2 d e)).trans (congrArg (s (ix2 d e) + ·) ?_)
  refine (matmul_energy_apply _ _ d e).trans ?_
  refine Finset.sum_congr rfl fun r _ => congrArg₂ (· * ·) ?_ (tile_proj_apply x0 x3 r e)
  refine (transpose_apply [1, 0] _ transposes_S2048x64_p1_0_S64x2048 (ix2 d r) (ix2 r d) fun b => by
    match b with | ⟨0, _⟩ => rfl | ⟨1, _⟩ => rfl).trans ?_
  exact tile_proj_apply x0 x2 r d

/-- The zero accumulator reads zero. -/
theorem zero0_apply (d e : Fin 64) : zero0 (F := Ideal) (ix2 d e) = 0 := by
  unfold zero0 k0_pay1
  refine (congrFun (shapeCast_self _ shapeCasts_S64x64_S64x64) (ix2 d e)).trans ?_
  exact Ideal.ofBits_zero_f32

/-! ## The blocks the body reads, as entries of the argument arrays -/

variable (V : (c : Dev nD) → (b : Ref sig .tc) → Buf (Elt Ideal) ((c : Thread nD τ).loc b))

/-- The input, the key matrix and the value matrix as the region finds them, at their literal types. -/
abbrev xarr (c : Dev nD) : Cert.Spec.SX.Idx → EReal := V c main_arg0
abbrev karr (c : Dev nD) : Cert.Spec.SW.Idx → EReal := V c main_arg2
abbrev varr (c : Dev nD) : Cert.Spec.SW.Idx → EReal := V c main_arg3
/-- The blocks of them the body reads at point `t`. -/
abbrev xblk (c : Dev nD) (t : Fin cfg0.N) : Vec Ideal S1x2048x1024 .f32 := iblk0 V c 0 t
abbrev kblk (c : Dev nD) (t : Fin cfg0.N) : Vec Ideal S64x1024 .f32 := iblk0 V c 2 t
abbrev vblk (c : Dev nD) (t : Fin cfg0.N) : Vec Ideal S64x1024 .f32 := iblk0 V c 3 t

/-- The block indices over the grid: the two matrices' blocks are at (0, 0), the energy's block at point `t` at (t / 4, 0, 0). -/
theorem idx_facts5 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_5.index t (0 : Fin 3) = t.val / 4 ∧ win0_5.index t (1 : Fin 3) = 0 ∧ win0_5.index t (2 : Fin 3) = 0 :=
  (by decide +kernel : ∀ t : Fin grid0.N, _)

/-- The key matrix's block is the whole matrix. -/
theorem kblk_apply (c : Dev nD) (t : Fin cfg0.N) (d : Fin 64) (k : Fin 1024) : kblk V c t (ix2 d k) = karr V c (ix2 d k) := by
  obtain ⟨e0, e1, -⟩ := idx_facts5 t
  show V c main_arg2 (((cfg0.win 2).blk t).view.emb (ix2 d k)) = V c main_arg2 _
  refine congrArg (V c main_arg2) (funext fun a => Fin.ext ?_)
  match a with
  | ⟨0, _⟩ => show win0_2.index t (0 : Fin 2) * 64 + 1 * d.val = d.val; omega
  | ⟨1, _⟩ => show win0_2.index t (1 : Fin 2) * 1024 + 1 * k.val = k.val; omega

/-- The value matrix's block is the whole matrix. -/
theorem vblk_apply (c : Dev nD) (t : Fin cfg0.N) (d : Fin 64) (k : Fin 1024) : vblk V c t (ix2 d k) = varr V c (ix2 d k) := by
  obtain ⟨-, -, e0, e1, -⟩ := idx_facts5 t
  show V c main_arg3 (((cfg0.win 3).blk t).view.emb (ix2 d k)) = V c main_arg3 _
  refine congrArg (V c main_arg3) (funext fun a => Fin.ext ?_)
  match a with
  | ⟨0, _⟩ => show win0_3.index t (0 : Fin 2) * 64 + 1 * d.val = d.val; omega
  | ⟨1, _⟩ => show win0_3.index t (1 : Fin 2) * 1024 + 1 * k.val = k.val; omega

/-! ## One point's addend, and the energy's sum cut into tiles -/

/-- The term of the energy's sum at row `n` of batch `b`: the key times the value; zero past the sequence's end. -/
def rowTerm (c : Dev nD) (b : Fin 4) (d e : Fin 64) (n : ℕ) : EReal :=
  if h : n < 8192 then Cert.Spec.proj (xarr V c) (karr V c) b ⟨n, h⟩ d * Cert.Spec.proj (xarr V c) (varr V c) b ⟨n, h⟩ e else 0

/-- What the body adds to entry (d, e) of the accumulator at point `t`. -/
def tileE (c : Dev nD) (t : Fin cfg0.N) (d e : Fin 64) : EReal :=
  ∑ r : Fin 2048, (∑ k : Fin 1024, xblk V c t (ix3 (0 : Fin 1) r k) * kblk V c t (ix2 d k))
    * (∑ k : Fin 1024, xblk V c t (ix3 (0 : Fin 1) r k) * vblk V c t (ix2 e k))

/-- The same at any natural number, zero past the grid. -/
def addend (c : Dev nD) (n : ℕ) (i : S64x64.Idx) : EReal :=
  if h : n < cfg0.N then tileE V c ⟨n, h⟩ (i 0) (i 1) else 0

/-- The body at point `n` adds that point's addend to the accumulator. -/
theorem acc_step (c : Dev nD) (n : ℕ) (h : n < cfg0.N) (s : Vec Ideal S64x64 .f32) (i : S64x64.Idx) :
    acc0 (xblk V c ⟨n, h⟩) (kblk V c ⟨n, h⟩) (vblk V c ⟨n, h⟩) s i = s i + addend V c n i := by
  obtain ⟨d, e, rfl⟩ : ∃ (d e : Fin 64), i = ix2 d e := ⟨i 0, i 1, eq_ix2 i⟩
  refine (acc0_apply (xblk V c ⟨n, h⟩) (kblk V c ⟨n, h⟩) (vblk V c ⟨n, h⟩) s d e).trans ?_
  unfold addend
  rw [dif_pos h]
  rfl

/-- The addend of point `4·b + s` is the part of batch `b`'s sum over the rows `2048·s … 2048·s + 2047`. -/
theorem tile_eq (c : Dev nD) (t : Fin cfg0.N) (b : Fin 4) (s : ℕ) (hs : s < 4) (ht : t.val = 4 * b.val + s) (d e : Fin 64) :
    tileE V c t d e = ∑ r : Fin 2048, rowTerm V c b d e (2048 * s + r.val) := by
  unfold tileE
  refine Finset.sum_congr rfl fun r _ => ?_
  have hn : 2048 * s + r.val < 8192 := by have := r.isLt; omega
  unfold rowTerm
  rw [dif_pos hn]
  unfold Cert.Spec.proj
  have hx : ∀ k : Fin 1024, xblk V c t (ix3 (0 : Fin 1) r k) = xarr V c (ix3 b (⟨2048 * s + r.val, hn⟩ : Fin 8192) k) := fun k =>
    xblk_apply V c t r k b ⟨2048 * s + r.val, hn⟩ (by omega) (by show 2048 * s + r.val = 2048 * (t.val % 4) + r.val; omega)
  exact congrArg₂ (· * ·)
    (Finset.sum_congr rfl fun k _ => congrArg₂ (· * ·) (hx k) (kblk_apply V c t d k))
    (Finset.sum_congr rfl fun k _ => congrArg₂ (· * ·) (hx k) (vblk_apply V c t e k))

/-! ## The accumulator when it is written back -/

/-- After the last tile of batch `b` the accumulator holds the batch's energy: zero plus the four tiles' addends, which are
    the energy's sum over the whole sequence cut into four runs of rows. -/
theorem sc0_flush (c : Dev nD) (b : Fin 4) (h : 4 * b.val + 3 < cfg0.N) (d e : Fin 64) :
    sc0 V c (4 * b.val + 3) h (ix2 d e)
      = Cert.Spec.energy (Cert.Spec.proj (xarr V c) (karr V c)) (Cert.Spec.proj (xarr V c) (varr V c)) b d e := by
  have hN : cfg0.N = 16 := N_0
  have hb := b.isLt
  have hfold := Pipeline.eq_accAt (sc0 V c) 4
    (fun n h => acc0 (xblk V c ⟨n, h⟩) (kblk V c ⟨n, h⟩) (vblk V c ⟨n, h⟩) zero0)
    (fun n h s => acc0 (xblk V c ⟨n, h⟩) (kblk V c ⟨n, h⟩) (vblk V c ⟨n, h⟩) s)
    (fun n h hm => sc0_reset V c ⟨n, h⟩ hm) (fun n h hm => sc0_step V c ⟨n + 1, h⟩ hm) b.val 3 (by decide) h
  have ha : ∀ (h : 4 * b.val < cfg0.N) (i : S64x64.Idx),
      acc0 (xblk V c ⟨4 * b.val, h⟩) (kblk V c ⟨4 * b.val, h⟩) (vblk V c ⟨4 * b.val, h⟩) zero0 i
        = (fun _ => (0 : EReal)) i + addend V c (4 * b.val) i := fun h i => by
    refine (acc_step V c (4 * b.val) h zero0 i).trans ?_
    obtain ⟨d', e', rfl⟩ : ∃ (d' e' : Fin 64), i = ix2 d' e' := ⟨i 0, i 1, eq_ix2 i⟩
    exact congrArg (· + addend V c (4 * b.val) (ix2 d' e')) (zero0_apply d' e')
  have hsum := Pipeline.accAt_add_apply (β := EReal)
    (fun n h => acc0 (xblk V c ⟨n, h⟩) (kblk V c ⟨n, h⟩) (vblk V c ⟨n, h⟩) zero0)
    (fun n h s => acc0 (xblk V c ⟨n, h⟩) (kblk V c ⟨n, h⟩) (vblk V c ⟨n, h⟩) s)
    (fun _ => (0 : EReal)) (addend V c) (4 * b.val) 3 ha (fun n h acc i _ _ => acc_step V c n h acc i) 3 (le_refl 3) h (ix2 d e)
  refine (congrFun hfold (ix2 d e)).trans (hsum.trans ?_)
  show (0 : EReal) + ∑ s ∈ Finset.range 4, addend V c (4 * b.val + s) (ix2 d e) = _
  rw [zero_add]
  have e1 : ∀ s ∈ Finset.range 4, addend V c (4 * b.val + s) (ix2 d e) = ∑ r : Fin 2048, rowTerm V c b d e (2048 * s + r.val) := fun s hs => by
    have hs4 : s < 4 := Finset.mem_range.mp hs
    have hlt : 4 * b.val + s < cfg0.N := by omega
    unfold addend
    rw [dif_pos hlt]
    exact tile_eq V c ⟨4 * b.val + s, hlt⟩ b s hs4 rfl d e
  rw [Finset.sum_congr rfl e1]
  refine (Cert.SumTiles.sum_range_tiles 4 2048 (rowTerm V c b d e)).trans ?_
  show ∑ n : Fin 8192, rowTerm V c b d e n.val = _
  unfold Cert.Spec.energy
  refine Finset.sum_congr rfl fun n _ => ?_
  unfold rowTerm
  rw [dif_pos n.isLt]

/-! ## From the blocks to the array -/

/-- The accumulator under a unit axis reads (0, d, e) at (d, e). -/
theorem out0_5_apply (s : Vec Ideal S64x64 .f32) (z : Fin 1) (d e : Fin 64) :
    out0_5 (F := Ideal) s (ix3 z d e) = s (ix2 d e) := by
  unfold out0_5 k0_pay5
  refine (shapeCast_addUnit_apply ![64, 64] s shapeCasts_S64x64_S1x64x64 (ix3 z d e)).trans ?_
  exact congrArg s (funext fun a => by match a with | ⟨0, _⟩ => rfl | ⟨1, _⟩ => rfl)

/-- Every batch's energy as one function of the three arrays the second result depends on. -/
abbrev energyArr (c : Dev nD) : Cert.Spec.SE.Idx → EReal :=
  fun i => Cert.Spec.energy (Cert.Spec.proj (xarr V c) (karr V c)) (Cert.Spec.proj (xarr V c) (varr V c)) (i 0) (i 1) (i 2)

/-- Where point `t`'s second output block lies in the second result: batch `t / 4`, all of its 64 × 64 entries. -/
theorem eblk_emb (t : Fin cfg0.N) (b : Fin 4) (hb : b.val = t.val / 4) (z : Fin 1) (d e : Fin 64) :
    ((cfg0.win 5).blk t).view.emb (ix3 z d e) = (ix3 b d e : S4x64x64.Idx) := by
  obtain ⟨-, -, -, -, e0, e1, e2⟩ := idx_facts5 t
  funext a
  apply Fin.ext
  match a with
  | ⟨0, _⟩ => show win0_5.index t (0 : Fin 3) * 1 + 1 * z.val = b.val; have := z.isLt; omega
  | ⟨1, _⟩ => show win0_5.index t (1 : Fin 3) * 64 + 1 * d.val = d.val; omega
  | ⟨2, _⟩ => show win0_5.index t (2 : Fin 3) * 64 + 1 * e.val = e.val; omega

/-- What the second output's staging buffer holds after a batch's last tile, entry by entry, is the batch's energy at the
    entry's place in the array. -/
theorem after0_5_apply (c : Dev nD) (t : Fin cfg0.N) (h3 : t.val % 4 = 3) (j : S1x64x64.Idx) :
    out0_5 (F := Ideal) (sc0 V c t.val t.isLt) j = energyArr V c (((cfg0.win 5).blk t).view.emb j) := by
  obtain ⟨z, d, e, rfl⟩ : ∃ (z : Fin 1) (d e : Fin 64), j = ix3 z d e := ⟨j 0, j 1, j 2, eq_ix3 j⟩
  have hN : cfg0.N = 16 := N_0
  obtain ⟨tv, htv⟩ := t
  obtain ⟨q, rfl⟩ : ∃ q, tv = 4 * q + 3 := ⟨tv / 4, by dsimp only at h3; omega⟩
  have hq : q < 4 := by omega
  rw [eblk_emb ⟨4 * q + 3, htv⟩ ⟨q, hq⟩ (by show q = (4 * q + 3) / 4; omega) z d e]
  refine (out0_5_apply _ z d e).trans ?_
  exact sc0_flush V c ⟨q, hq⟩ htv d e

/-- WHAT A BATCH'S LAST POINT WRITES BACK to the second result is its block of the energy. -/
theorem flushed0_5_eq (c : Dev nD) (t : Fin cfg0.N) (hf : (cfg0.win 5).flush t = true) :
    (dat0 (F := Ideal) V c).flushed 5 t = ((cfg0.win 5).blk t).view.read (Elt Ideal) (energyArr V c) := by
  have h3 : t.val % 4 = 3 := (flush0_5 t).mp hf
  show (cfg0.win 5).cut (grid0.coords t) ((dat0 (F := Ideal) V c).after 5 t) = _
  rw [after0_5]
  funext j
  exact after0_5_apply V c t h3 j

/-- An index of the second result is in point `t`'s block iff each coordinate is in the block's range on its axis. -/
theorem mem_blk0_5 (t : Fin cfg0.N) (i : S4x64x64.Idx) :
    i ∈ ((cfg0.win 5).blk t).view.set ↔ ∀ a : Fin 3, win0_5.index t a * S1x64x64.size a ≤ (i a).val ∧ (i a).val < win0_5.index t a * S1x64x64.size a + S1x64x64.size a := by
  show i ∈ ((View.whole main_v0_1).slice (win0_5.rect t)).set ↔ _
  rw [View.set_slice_whole, Rect.mem_set_unit]
  exact Iff.rfl

/-- Every index (b, d, e) of the second result is in the block of the point `4·b + 3`, which writes back. -/
theorem cover0_5 (i : S4x64x64.Idx) :
    ∃ t : Fin cfg0.N, (cfg0.win 5).flush t = true ∧ i ∈ ((cfg0.win 5).blk t).view.set := by
  have hN : cfg0.N = 16 := N_0
  have h0 : (i 0).val < 4 := (i 0).isLt
  have h1 : (i 1).val < 64 := (i 1).isLt
  have h2 : (i 2).val < 64 := (i 2).isLt
  refine ⟨⟨4 * (i 0).val + 3, by omega⟩, (flush0_5 _).mpr (by show (4 * (i 0).val + 3) % 4 = 3; omega), ?_⟩
  rw [mem_blk0_5]
  obtain ⟨-, -, -, -, e0, e1, e2⟩ := idx_facts5 ⟨4 * (i 0).val + 3, by omega⟩
  intro a
  match a with
  | ⟨0, _⟩ =>
    show win0_5.index _ (0 : Fin 3) * 1 ≤ (i 0).val ∧ (i 0).val < win0_5.index _ (0 : Fin 3) * 1 + 1
    rw [e0]; show (4 * (i 0).val + 3) / 4 * 1 ≤ (i 0).val ∧ (i 0).val < (4 * (i 0).val + 3) / 4 * 1 + 1
    omega
  | ⟨1, _⟩ =>
    show win0_5.index _ (1 : Fin 3) * 64 ≤ (i 1).val ∧ (i 1).val < win0_5.index _ (1 : Fin 3) * 64 + 64
    rw [e1]; omega
  | ⟨2, _⟩ =>
    show win0_5.index _ (2 : Fin 3) * 64 ≤ (i 2).val ∧ (i 2).val < win0_5.index _ (2 : Fin 3) * 64 + 64
    rw [e2]; omega

end Energy

/-- THE SECOND RESULT AFTER THE REGION: every batch's energy, as one function of the input and the key and value matrices
    as the region finds them. -/
theorem final0_5 (V : (c : Dev nD) → (b : Ref sig .tc) → Buf (Elt Ideal) ((c : Thread nD τ).loc b)) (c : Dev nD) :
    (dat0 (F := Ideal) V c).arrAt 5 cfg0.N
      = fun i => Cert.Spec.energy (Cert.Spec.proj (V c main_arg0) (V c main_arg2)) (Cert.Spec.proj (V c main_arg0) (V c main_arg3)) (i 0) (i 1) (i 2) :=
  (dat0 (F := Ideal) V c).arrAt_eq_of_cover 5 (Energy.energyArr V c) (Energy.flushed0_5_eq V c) Energy.cover0_5

end Cert.KernelIdeal.Hand

end
-- ==== Proof.KI.ValueR1.lean ====
/-
  What the second pallas_call (the context kernel) leaves in its output array, as ONE function of the arrays it reads,
  on the extended reals, where every operation is exact.

  The output array [4, 8192, 1024] is cut into 16 blocks of 2048 rows each: block (b, n) is rows 2048·n … 2048·n + 2047 of
  batch b, and it is the block of grid point t = 4·b + n (so b = t / 4, n = t % 4). At that point the body is handed the
  matching 2048-row tile Q of the projected queries, the 64×64 energy matrix E of batch b, and the whole output
  projection Wo, and stores ((Q · E) · s) · Woᵀ. Entry (r, j) of the block is therefore

      Σ_e ((Σ_d Q[b, 2048·n + r, d] · E[b, d, e]) · s) · Wo[j, e] :

  it depends on ONE row of the projected queries (row 2048·n + r of batch b), on batch b's energy matrix, and on row j
  of the output projection — on nothing of another batch, another tile or another point. So each block is the
  restriction to its rows of one function of the three arrays, the specification's output projection of the scaled
  context, and since the 16 blocks tile the array and every point writes its block back, that function is what the array
  holds after the last point.

  In order: each of the two products read at an index (a contraction over one axis of extent 64 is a sum over Fin 64);
  the layout operations read at an index (a unit axis dropped or added, a transposition); the body's result at an
  index; each input block as entries of its array (a block's coordinate is block index × block size + the coordinate
  inside the block); what a point writes back; every index of the array in some point's block; the array.
-/
import proofs.«129314_j39986145526411_1_alg».proof.Proof.KI.R1
import proofs.«129314_j39986145526411_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

/-! ## Zero offsets, however they are spelt -/

theorem zeros3 : (![0, 0, 0] : Fin 3 → ℕ) = fun _ => 0 := funext fun a => by fin_cases a <;> rfl
theorem zeros2 : (![0, 0] : Fin 2 → ℕ) = fun _ => 0 := funext fun a => by fin_cases a <;> rfl

/-! ## The first product: a query tile against the energy matrix -/

theorem qe_lhs_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem qe_lhs_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem qe_rhs_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem qe_rhs_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- Entry (r, e) of the first product is row r of the tile against column e of the matrix. -/
theorem qe_apply (a : FVec Ideal S2048x64 .f32) (b : FVec Ideal S64x64 .f32) (r : Fin 2048) (e : Fin 64) :
    matmul dot_S2048x64_S64x64_S2048x64_1_0_0_1_n_n none a b (constant (F := Ideal) S2048x64 .f32 0x00000000#32) (ix2 r e)
      = ∑ d : Fin 64, a (ix2 r d) * b (ix2 d e) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r e) ((contrEquiv1 dot_S2048x64_S64x64_S2048x64_1_0_0_1_n_n 64 rfl rfl).symm k) = ix2 r k := funext fun a => Fin.ext (by
    match a with
    | ⟨0, _⟩ => exact qe_lhs_0 _ _
    | ⟨1, _⟩ => exact (qe_lhs_1 _ _).trans hk)
  have er : dot_S2048x64_S64x64_S2048x64_1_0_0_1_n_n.rhsIdx (ix2 r e) ((contrEquiv1 dot_S2048x64_S64x64_S2048x64_1_0_0_1_n_n 64 rfl rfl).symm k) = ix2 k e := funext fun a => Fin.ext (by
    match a with
    | ⟨0, _⟩ => exact (qe_rhs_0 _ _).trans hk
    | ⟨1, _⟩ => exact qe_rhs_1 _ _)
  rw [el, er]

/-! ## The second product: the scaled context tile against the output projection, transposed -/

theorem cw_lhs_0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
theorem cw_lhs_1 (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q
theorem cw_rhs_0 (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q
theorem cw_rhs_1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- Entry (r, j) of the second product is row r of the left factor against column j of the right one. -/
theorem cw_apply (a : FVec Ideal S2048x64 .f32) (b : FVec Ideal S64x1024 .f32) (r : Fin 2048) (j : Fin 1024) :
    matmul dot_S2048x64_S64x1024_S2048x1024_1_0_0_1_n_n none a b (constant (F := Ideal) S2048x1024 .f32 0x00000000#32) (ix2 r j)
      = ∑ e : Fin 64, a (ix2 r e) * b (ix2 e j) := by
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 r j) ((contrEquiv1 dot_S2048x64_S64x1024_S2048x1024_1_0_0_1_n_n 64 rfl rfl).symm k) = ix2 r k := funext fun a => Fin.ext (by
    match a with
    | ⟨0, _⟩ => exact cw_lhs_0 _ _
    | ⟨1, _⟩ => exact (cw_lhs_1 _ _).trans hk)
  have er : dot_S2048x64_S64x1024_S2048x1024_1_0_0_1_n_n.rhsIdx (ix2 r j) ((contrEquiv1 dot_S2048x64_S64x1024_S2048x1024_1_0_0_1_n_n 64 rfl rfl).symm k) = ix2 k j := funext fun a => Fin.ext (by
    match a with
    | ⟨0, _⟩ => exact (cw_rhs_0 _ _).trans hk
    | ⟨1, _⟩ => exact cw_rhs_1 _ _)
  rw [el, er]

/-! ## The layout operations at an index -/

/-- The query tile viewed as a matrix: its leading unit axis dropped. -/
theorem qtile_apply (x0 : Vec Ideal S1x2048x64 .f32) (r : Fin 2048) (d : Fin 64) :
    shapeCast S2048x64 x0 shapeCasts_S1x2048x64_S2048x64 (ix2 r d) = x0 (ix3 0 r d) := by
  refine (shapeCast_dropUnit_apply ![2048, 64] x0 shapeCasts_S1x2048x64_S2048x64 (ix2 r d)).trans (congrArg x0 ?_)
  funext a
  match a with
  | ⟨0, _⟩ => rfl
  | ⟨1, _⟩ => rfl
  | ⟨2, _⟩ => rfl

/-- The batch's energy matrix viewed as a matrix. -/
theorem energy_apply (x1 : Vec Ideal S1x64x64 .f32) (d e : Fin 64) :
    shapeCast S64x64 x1 shapeCasts_S1x64x64_S64x64 (ix2 d e) = x1 (ix3 0 d e) := by
  refine (shapeCast_dropUnit_apply ![64, 64] x1 shapeCasts_S1x64x64_S64x64 (ix2 d e)).trans (congrArg x1 ?_)
  funext a
  match a with
  | ⟨0, _⟩ => rfl
  | ⟨1, _⟩ => rfl
  | ⟨2, _⟩ => rfl

/-- The output projection transposed. -/
theorem wo_t_apply (x2 : Vec Ideal S1024x64 .f32) (e : Fin 64) (j : Fin 1024) :
    transpose S64x1024 [1, 0] x2 transposes_S1024x64_p1_0_S64x1024 (ix2 e j) = x2 (ix2 j e) := by
  refine transpose_apply [1, 0] x2 transposes_S1024x64_p1_0_S64x1024 (ix2 e j) (ix2 j e) fun b => ?_
  match b with
  | ⟨0, _⟩ => rfl
  | ⟨1, _⟩ => rfl

/-- A matrix stored as a block with a leading unit axis. -/
theorem block_apply (y : FVec Ideal S2048x1024 .f32) (r : Fin 2048) (j : Fin 1024) :
    shapeCast S1x2048x1024 y shapeCasts_S2048x1024_S1x2048x1024 (ix3 0 r j) = y (ix2 r j) := by
  refine (shapeCast_addUnit_apply ![2048, 1024] y shapeCasts_S2048x1024_S1x2048x1024 (ix3 0 r j)).trans (congrArg y ?_)
  funext a
  match a with
  | ⟨0, _⟩ => rfl
  | ⟨1, _⟩ => rfl

/-! ## The body's result at an index -/

/-- Entry (0, r, j) of what the body stores: row r of the query tile against the energy matrix, scaled, against
    row j of the output projection. -/
theorem out1_3_apply (x0 : Vec Ideal S1x2048x64 .f32) (x1 : Vec Ideal S1x64x64 .f32) (x2 : Vec Ideal S1024x64 .f32) (r : Fin 2048) (j : Fin 1024) :
    out1_3 x0 x1 x2 (ix3 0 r j)
      = ∑ e : Fin 64, ((∑ d : Fin 64, x0 (ix3 0 r d) * x1 (ix3 0 d e)) * Ideal.ofBits .f32 0x3E5DB3D7#32) * x2 (ix2 j e) := by
  unfold out1_3
  rw [View.canon_unit_zero zeros3]
  simp only [View.ld_unit_zero (S := S1x2048x64) zeros3, View.ld_unit_zero (S := S1x64x64) zeros3, View.ld_unit_zero (S := S1024x64) zeros2]
  unfold k1_pay1
  refine (block_apply _ r j).trans ?_
  refine (cw_apply _ _ r j).trans ?_
  refine Finset.sum_congr rfl fun e _ => ?_
  rw [wo_t_apply, mulf_apply, broadcast_apply]
  refine congrArg (· * x2 (ix2 j e)) ?_
  refine congrArg (· * _) ?_
  refine (qe_apply _ _ r e).trans ?_
  refine Finset.sum_congr rfl fun d _ => ?_
  rw [qtile_apply, energy_apply]

/-! ## The blocks the body is called on, as entries of the arrays -/

variable (V : (c : Dev nD) → (b : Ref sig .tc) → Buf (Elt Ideal) ((c : Thread nD τ).loc b))

/-- The index maps over the grid: point `t` is batch `t / 4`, tile `t % 4`; the query tile and the output block move
    with both, the energy matrix with the batch, the output projection not at all. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val / 4 ∧ win1_3.index t (1 : Fin 3) = t.val % 4 ∧ win1_3.index t (2 : Fin 3) = 0 :=
  (by decide +kernel : ∀ t : Fin grid1.N, _)

/-- Row `r` of the query tile at point `t` is row `2048 · (t % 4) + r` of batch `t / 4`. -/
theorem tile_read (c : Dev nD) (t : Fin cfg1.N) (r : Fin 2048) (d : Fin 64) (k : S4x8192x64.Idx)
    (hk0 : (k 0).val = t.val / 4) (hk1 : (k 1).val = 2048 * (t.val % 4) + r.val) (hk2 : (k 2).val = d.val) :
    (iblk1 V c 0 t : Vec Ideal S1x2048x64 .f32) (ix3 0 r d) = (V c main_v0_0 : S4x8192x64.Idx → EReal) k := by
  obtain ⟨e0, e1, e2, -⟩ := idx_facts1 t
  unfold iblk1
  rw [View.read_apply]
  show V c main_v0_0 _ = V c main_v0_0 _
  congr 1
  funext a
  apply Fin.ext
  match a with
  | ⟨0, _⟩ => show win1_0.index t 0 * 1 + 1 * 0 = (k 0).val; rw [e0, hk0]; omega
  | ⟨1, _⟩ => show win1_0.index t 1 * 2048 + 1 * r.val = (k 1).val; rw [e1, hk1]; omega
  | ⟨2, _⟩ => show win1_0.index t 2 * 64 + 1 * d.val = (k 2).val; rw [e2, hk2]; omega

/-- The energy block at point `t` is batch `t / 4`'s matrix. -/
theorem energy_read (c : Dev nD) (t : Fin cfg1.N) (d e : Fin 64) (k : S4x64x64.Idx)
    (hk0 : (k 0).val = t.val / 4) (hk1 : (k 1).val = d.val) (hk2 : (k 2).val = e.val) :
    (iblk1 V c 1 t : Vec Ideal S1x64x64 .f32) (ix3 0 d e) = (V c main_v0_1 : S4x64x64.Idx → EReal) k := by
  obtain ⟨-, -, -, e0, e1, e2, -⟩ := idx_facts1 t
  unfold iblk1
  rw [View.read_apply]
  show V c main_v0_1 _ = V c main_v0_1 _
  congr 1
  funext a
  apply Fin.ext
  match a with
  | ⟨0, _⟩ => show win1_1.index t 0 * 1 + 1 * 0 = (k 0).val; rw [e0, hk0]; omega
  | ⟨1, _⟩ => show win1_1.index t 1 * 64 + 1 * d.val = (k 1).val; rw [e1, hk1]; omega
  | ⟨2, _⟩ => show win1_1.index t 2 * 64 + 1 * e.val = (k 2).val; rw [e2, hk2]; omega

/-- The output projection's block is the whole matrix at every point. -/
theorem wo_read (c : Dev nD) (t : Fin cfg1.N) (j : Fin 1024) (e : Fin 64) (k : S1024x64.Idx)
    (hk0 : (k 0).val = j.val) (hk1 : (k 1).val = e.val) :
    (iblk1 V c 2 t : Vec Ideal S1024x64 .f32) (ix2 j e) = (V c main_arg4 : S1024x64.Idx → EReal) k := by
  obtain ⟨-, -, -, -, -, -, e0, e1, -⟩ := idx_facts1 t
  unfold iblk1
  rw [View.read_apply]
  show V c main_arg4 _ = V c main_arg4 _
  congr 1
  funext a
  apply Fin.ext
  match a with
  | ⟨0, _⟩ => show win1_2.index t 0 * 1024 + 1 * j.val = (k 0).val; rw [e0, hk0]; omega
  | ⟨1, _⟩ => show win1_2.index t 1 * 64 + 1 * e.val = (k 1).val; rw [e1, hk1]; omega

/-! ## What the region leaves, as one function of the arrays it reads -/

/-- The output array after the region: the specification's output projection of the scaled context, of the arrays as
    the region finds them. -/
abbrev ctxOut (c : Dev nD) : S4x8192x1024.Idx → EReal := fun i =>
  Cert.Spec.outp (Cert.Spec.ctx (fun b n d => V c main_v0_0 (ix3 b n d)) (fun b d e => V c main_v0_1 (ix3 b d e)) Cert.Spec.scale)
    (V c main_arg4) (i 0) (i 1) (i 2)

/-- Entry (0, r, j) of what point `t` stores is the specification at batch `t / 4`, row `2048 · (t % 4) + r`, column `j`. -/
theorem point_apply (c : Dev nD) (t : Fin cfg1.N) (r : Fin 2048) (j : Fin 1024) (b : Fin 4) (n : Fin 8192)
    (hb : b.val = t.val / 4) (hn : n.val = 2048 * (t.val % 4) + r.val) :
    out1_3 (iblk1 V c 0 t) (iblk1 V c 1 t) (iblk1 V c 2 t) (ix3 0 r j)
      = Cert.Spec.outp (Cert.Spec.ctx (fun b n d => V c main_v0_0 (ix3 b n d)) (fun b d e => V c main_v0_1 (ix3 b d e)) Cert.Spec.scale)
          (V c main_arg4) b n j := by
  refine (out1_3_apply _ _ _ r j).trans ?_
  unfold Cert.Spec.outp Cert.Spec.ctx Cert.Spec.scale
  refine Finset.sum_congr rfl fun e _ => ?_
  rw [wo_read V c t j e (ix2 j e) rfl rfl]
  refine congrArg (· * _) (congrArg (· * _) (Finset.sum_congr rfl fun d _ => ?_))
  rw [tile_read V c t r d (ix3 b n d) hb hn rfl, energy_read V c t d e (ix3 b d e) hb rfl rfl]

/-! ## From the blocks to the array -/

/-- What point `t` writes back is block `t` of that function. -/
theorem flushed1_3_eq (c : Dev nD) (t : Fin cfg1.N) :
    (dat1 V c).flushed 3 t = ((cfg1.win 3).blk t).view.read (Elt Ideal) (ctxOut V c) := by
  show (cfg1.win 3).cut (grid1.coords t) ((dat1 V c).after 3 t) = _
  rw [after1_3]
  obtain ⟨-, -, -, -, -, -, -, -, e0, e1, e2⟩ := idx_facts1 t
  funext (y : S1x2048x1024.Idx)
  obtain ⟨a, r, j, rfl⟩ : ∃ (a : Fin 1) (r : Fin 2048) (j : Fin 1024), y = ix3 a r j := ⟨y 0, y 1, y 2, eq_ix3 y⟩
  obtain rfl : a = 0 := Subsingleton.elim _ _
  show out1_3 (iblk1 V c 0 t) (iblk1 V c 1 t) (iblk1 V c 2 t) (ix3 0 r j) = ctxOut V c (((cfg1.win 3).blk t).view.emb (ix3 0 r j))
  have ht : t.val < 16 := t.isLt
  have hr : r.val < 2048 := r.isLt
  refine (point_apply V c t r j ⟨t.val / 4, by omega⟩ ⟨2048 * (t.val % 4) + r.val, by omega⟩ rfl rfl).trans ?_
  · show _ = Cert.Spec.outp _ _ _ _ _
    congr 1
    · apply Fin.ext
      show t.val / 4 = win1_3.index t 0 * 1 + 1 * 0
      rw [e0]; omega
    · apply Fin.ext
      show 2048 * (t.val % 4) + r.val = win1_3.index t 1 * 2048 + 1 * r.val
      rw [e1]; omega
    · apply Fin.ext
      show j.val = win1_3.index t 2 * 1024 + 1 * j.val
      rw [e2]; omega

/-- An index of the output array is in point `t`'s block iff each coordinate is in the block's range on its axis. -/
theorem mem_blk1_3 (t : Fin cfg1.N) (i : S4x8192x1024.Idx) :
    i ∈ ((cfg1.win 3).blk t).view.set ↔ ∀ a : Fin 3, win1_3.index t a * S1x2048x1024.size a ≤ (i a).val ∧ (i a).val < win1_3.index t a * S1x2048x1024.size a + S1x2048x1024.size a := by
  show i ∈ ((View.whole main_v1).slice (win1_3.rect t)).set ↔ _
  rw [View.set_slice_whole, Rect.mem_set_unit]
  exact Iff.rfl

/-- Every entry (b, n, j) of the output array lies in the block of point `4 · b + n / 2048`, which is written back. -/
theorem cover1 (i : S4x8192x1024.Idx) :
    ∃ t : Fin cfg1.N, (cfg1.win 3).flush t = true ∧ i ∈ ((cfg1.win 3).blk t).view.set := by
  have h0 : (i 0).val < 4 := (i 0).isLt
  have h1 : (i 1).val < 8192 := (i 1).isLt
  have h2 : (i 2).val < 1024 := (i 2).isLt
  have hN : 4 * (i 0).val + (i 1).val / 2048 < cfg1.N := by show _ < 16; omega
  refine ⟨⟨4 * (i 0).val + (i 1).val / 2048, hN⟩, flush1_3 _, ?_⟩
  obtain ⟨-, -, -, -, -, -, -, -, e0, e1, e2⟩ := idx_facts1 ⟨4 * (i 0).val + (i 1).val / 2048, hN⟩
  rw [mem_blk1_3]
  intro a
  match a with
  | ⟨0, _⟩ =>
    show win1_3.index _ 0 * 1 ≤ (i 0).val ∧ (i 0).val < win1_3.index _ 0 * 1 + 1
    rw [e0]; show (4 * (i 0).val + (i 1).val / 2048) / 4 * 1 ≤ _ ∧ _ < (4 * (i 0).val + (i 1).val / 2048) / 4 * 1 + 1; omega
  | ⟨1, _⟩ =>
    show win1_3.index _ 1 * 2048 ≤ (i 1).val ∧ (i 1).val < win1_3.index _ 1 * 2048 + 2048
    rw [e1]; show (4 * (i 0).val + (i 1).val / 2048) % 4 * 2048 ≤ _ ∧ _ < (4 * (i 0).val + (i 1).val / 2048) % 4 * 2048 + 2048; omega
  | ⟨2, _⟩ =>
    show win1_3.index _ 2 * 1024 ≤ (i 2).val ∧ (i 2).val < win1_3.index _ 2 * 1024 + 1024
    rw [e2]; omega

/-- THE OUTPUT ARRAY after the region: at every index the specification's output projection of the scaled context, of
    the projected queries, the energies and the output projection as the region finds them. -/
theorem final1_3 (c : Dev nD) :
    (dat1 (F := Ideal) V c).arrAt 3 cfg1.N
      = fun i => Cert.Spec.outp (Cert.Spec.ctx (fun b n d => V c main_v0_0 (ix3 b n d)) (fun b d e => V c main_v0_1 (ix3 b d e)) Cert.Spec.scale) (V c main_arg4) (i 0) (i 1) (i 2) :=
  (dat1 V c).arrAt_eq_of_cover 3 (ctxOut V c) (fun t _ => flushed1_3_eq V c t) cover1

end Cert.KernelIdeal.Hand

end
-- ==== Proof.KI.Value.lean ====
/-
  The kernel's result as the specification. After the first pallas_call its two result arrays hold the queries
  `proj x wq` and each batch's energy `energy (proj x wk) (proj x wv)`; the second pallas_call, entered at those contents,
  leaves `outp (ctx Q E scale) wo` of the arrays it reads. Composed: the result array ends at `Spec.G` of the five launch
  arrays.
-/
import proofs.«129314_j39986145526411_1_alg».proof.Proof.KI.Run
import proofs.«129314_j39986145526411_1_alg».proof.Proof.KI.ValueQ
import proofs.«129314_j39986145526411_1_alg».proof.Proof.KI.ValueE
import proofs.«129314_j39986145526411_1_alg».proof.Proof.KI.ValueR1
import proofs.«129314_j39986145526411_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The queries' array when the second call is entered. -/
theorem V1_main_v0_0 (c : Dev nD) :
    V1 m c main_v0_0 = fun i => Cert.Spec.proj (m ((c.tc : Thread nD τ).loc main_arg0)) (m ((c.tc : Thread nD τ).loc main_arg1)) (i 0) (i 1) (i 2) :=
  (W1_arr m c 4).trans (final0_4 (V0 m) c)

/-- The energy array when the second call is entered. -/
theorem V1_main_v0_1 (c : Dev nD) :
    V1 m c main_v0_1 = fun i => Cert.Spec.energy (Cert.Spec.proj (m ((c.tc : Thread nD τ).loc main_arg0)) (m ((c.tc : Thread nD τ).loc main_arg2)))
      (Cert.Spec.proj (m ((c.tc : Thread nD τ).loc main_arg0)) (m ((c.tc : Thread nD τ).loc main_arg3))) (i 0) (i 1) (i 2) :=
  (W1_arr m c 5).trans (final0_5 (V0 m) c)

/-- The result array at the end is the specification of the launch arrays. -/
theorem kernel_value (c : Dev nD) :
    (dat1 (F := Ideal) (V1 m) c).arrAt 3 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [final1_3 (V1 m) c]
  have hQ : (fun (b : Fin 4) (n : Fin 8192) (d : Fin 64) => V1 m c main_v0_0 (ix3 b n d))
      = Cert.Spec.proj (m ((c.tc : Thread nD τ).loc main_arg0)) (m ((c.tc : Thread nD τ).loc main_arg1)) := by
    funext b n d; exact congrFun (V1_main_v0_0 m c) (ix3 b n d)
  have hE : (fun (b : Fin 4) (d e : Fin 64) => V1 m c main_v0_1 (ix3 b d e))
      = Cert.Spec.energy (Cert.Spec.proj (m ((c.tc : Thread nD τ).loc main_arg0)) (m ((c.tc : Thread nD τ).loc main_arg2)))
          (Cert.Spec.proj (m ((c.tc : Thread nD τ).loc main_arg0)) (m ((c.tc : Thread nD τ).loc main_arg3))) := by
    funext b d e; exact congrFun (V1_main_v0_1 m c) (ix3 b d e)
  have hW : V1 m c main_arg4 = m ((c.tc : Thread nD τ).loc main_arg4) := W1_main_arg4 m c
  rw [hQ, hE, hW]
  rfl

end Cert.KernelIdeal.Hand

end
-- ==== Proof.RefIsSpec.lean ====
/-
  The reference's term is the specification.

  The reference program is eight array operations on the extended reals. From the input `x` ([4, 8192, 1024]) and the
  weights `wq`, `wk`, `wv` ([64, 1024]) it forms the three projections, each a contraction of the last axis of `x` with
  the last axis of a weight: `Q[b,n,d] = Σ_k x[b,n,k] · wq[d,k]`, and `K`, `V` likewise. The fourth operation contracts
  the keys with the values along the sequence axis, one batch at a time: `E[b,d,e] = Σ_n K[b,n,d] · V[b,n,e]`. The fifth
  contracts the queries with that energy, again per batch: `Σ_d Q[b,n,d] · E[b,d,e]`. A scalar constant, given by its
  32-bit word, is broadcast to the shape of that result and multiplied in elementwise. The last operation contracts
  the scaled context with the output weight `wo` ([1024, 64]): `out[b,n,j] = Σ_e C[b,n,e] · wo[j,e]`.

  Each contraction reads its operands at an index computed from the result's index and the summation variable. At a
  result index given by explicit coordinates those operand indices are again indices of explicit coordinates, which is
  all the lemmas of the first section say. The second section then reads each operation, at explicit coordinates, as the
  corresponding function of the specification: the projections are `proj`, the fourth operation is `energy` of two
  projections, the fifth and the scaling together are `ctx`, and the last is `outp`. No law of arithmetic is used: the two
  sides are the same nested sums, term for term, and the constant stays the word it is written as.
-/
import proofs.«129314_j39986145526411_1_alg».proof.Proof.Gen.ReferenceIdeal.Read
import proofs.«129314_j39986145526411_1_alg».proof.Proof.Spec

noncomputable section

open scoped BigOperators

namespace Cert.RefIsSpec

open Idealize.ShloMosaic Idealize.ShloMosaic.ValueIdx Cert.ReferenceIdeal Cert.ReferenceIdeal.Read

/-! ### The operand indices of the contractions, at explicit coordinates -/

/-- A projection reads `x` in the result's batch and row, at the summation variable's column. -/
theorem lidx_v0 (b : Fin 4) (n : Fin 8192) (d : Fin 64) (k : Fin 1024) :
    lidx_main_v0 (ix3 b n d) k = ix3 b n k :=
  funext fun a => Fin.ext (by match a with | ⟨0, _⟩ => rfl | ⟨1, _⟩ => rfl | ⟨2, _⟩ => rfl)
/-- A projection reads the weight in the row of the result's last coordinate. -/
theorem ridx_v0 (b : Fin 4) (n : Fin 8192) (d : Fin 64) (k : Fin 1024) :
    ridx_main_v0 (ix3 b n d) k = ix2 d k :=
  funext fun a => Fin.ext (by match a with | ⟨0, _⟩ => rfl | ⟨1, _⟩ => rfl)
theorem lidx_v1 (b : Fin 4) (n : Fin 8192) (d : Fin 64) (k : Fin 1024) :
    lidx_main_v1 (ix3 b n d) k = ix3 b n k :=
  funext fun a => Fin.ext (by match a with | ⟨0, _⟩ => rfl | ⟨1, _⟩ => rfl | ⟨2, _⟩ => rfl)
theorem ridx_v1 (b : Fin 4) (n : Fin 8192) (d : Fin 64) (k : Fin 1024) :
    ridx_main_v1 (ix3 b n d) k = ix2 d k :=
  funext fun a => Fin.ext (by match a with | ⟨0, _⟩ => rfl | ⟨1, _⟩ => rfl)
theorem lidx_v2 (b : Fin 4) (n : Fin 8192) (d : Fin 64) (k : Fin 1024) :
    lidx_main_v2 (ix3 b n d) k = ix3 b n k :=
  funext fun a => Fin.ext (by match a with | ⟨0, _⟩ => rfl | ⟨1, _⟩ => rfl | ⟨2, _⟩ => rfl)
theorem ridx_v2 (b : Fin 4) (n : Fin 8192) (d : Fin 64) (k : Fin 1024) :
    ridx_main_v2 (ix3 b n d) k = ix2 d k :=
  funext fun a => Fin.ext (by match a with | ⟨0, _⟩ => rfl | ⟨1, _⟩ => rfl)
/-- The energy reads the keys in the result's batch, at the summed sequence position, in the column `d`. -/
theorem lidx_v3 (b : Fin 4) (d e : Fin 64) (n : Fin 8192) :
    lidx_main_v3 (ix3 b d e) n = ix3 b n d :=
  funext fun a => Fin.ext (by match a with | ⟨0, _⟩ => rfl | ⟨1, _⟩ => rfl | ⟨2, _⟩ => rfl)
/-- … and the values at the same batch and position, in the column `e`. -/
theorem ridx_v3 (b : Fin 4) (d e : Fin 64) (n : Fin 8192) :
    ridx_main_v3 (ix3 b d e) n = ix3 b n e :=
  funext fun a => Fin.ext (by match a with | ⟨0, _⟩ => rfl | ⟨1, _⟩ => rfl | ⟨2, _⟩ => rfl)
/-- The context reads the queries in the result's batch and row, at the summed column. -/
theorem lidx_v4 (b : Fin 4) (n : Fin 8192) (e d : Fin 64) :
    lidx_main_v4 (ix3 b n e) d = ix3 b n d :=
  funext fun a => Fin.ext (by match a with | ⟨0, _⟩ => rfl | ⟨1, _⟩ => rfl | ⟨2, _⟩ => rfl)
/-- … and the batch's energy at the summed row and the result's column. -/
theorem ridx_v4 (b : Fin 4) (n : Fin 8192) (e d : Fin 64) :
    ridx_main_v4 (ix3 b n e) d = ix3 b d e :=
  funext fun a => Fin.ext (by match a with | ⟨0, _⟩ => rfl | ⟨1, _⟩ => rfl | ⟨2, _⟩ => rfl)
/-- The output projection reads the scaled context in the result's batch and row, at the summed column. -/
theorem lidx_v7 (b : Fin 4) (n : Fin 8192) (j : Fin 1024) (e : Fin 64) :
    lidx_main_v7 (ix3 b n j) e = ix3 b n e :=
  funext fun a => Fin.ext (by match a with | ⟨0, _⟩ => rfl | ⟨1, _⟩ => rfl | ⟨2, _⟩ => rfl)
/-- … and the output weight in the row of the result's last coordinate. -/
theorem ridx_v7 (b : Fin 4) (n : Fin 8192) (j : Fin 1024) (e : Fin 64) :
    ridx_main_v7 (ix3 b n j) e = ix2 j e :=
  funext fun a => Fin.ext (by match a with | ⟨0, _⟩ => rfl | ⟨1, _⟩ => rfl)

/-! ### Each operation is the specification's function of the same name -/

section stages
variable (x0 : (⟨S4x8192x1024, .f32⟩ : BufTy).Contents (Elt Ideal))
  (x1 x2 x3 : (⟨S64x1024, .f32⟩ : BufTy).Contents (Elt Ideal))
  (x4 : (⟨S1024x64, .f32⟩ : BufTy).Contents (Elt Ideal))

/-- The queries. -/
theorem v0_at (b : Fin 4) (n : Fin 8192) (d : Fin 64) :
    val_main_v0 (F := Ideal) x0 x1 (ix3 b n d) = Cert.Spec.proj x0 x1 b n d := by
  rw [val_main_v0_apply]
  unfold Cert.Spec.proj
  refine Finset.sum_congr rfl fun k _ => ?_
  rw [lidx_v0, ridx_v0]
/-- The keys. -/
theorem v1_at (b : Fin 4) (n : Fin 8192) (d : Fin 64) :
    val_main_v1 (F := Ideal) x0 x2 (ix3 b n d) = Cert.Spec.proj x0 x2 b n d := by
  rw [val_main_v1_apply]
  unfold Cert.Spec.proj
  refine Finset.sum_congr rfl fun k _ => ?_
  rw [lidx_v1, ridx_v1]
/-- The values. -/
theorem v2_at (b : Fin 4) (n : Fin 8192) (d : Fin 64) :
    val_main_v2 (F := Ideal) x0 x3 (ix3 b n d) = Cert.Spec.proj x0 x3 b n d := by
  rw [val_main_v2_apply]
  unfold Cert.Spec.proj
  refine Finset.sum_congr rfl fun k _ => ?_
  rw [lidx_v2, ridx_v2]
/-- The energy: keys against values over the whole sequence. -/
theorem v3_at (b : Fin 4) (d e : Fin 64) :
    val_main_v3 (F := Ideal) x0 x2 x3 (ix3 b d e)
      = Cert.Spec.energy (Cert.Spec.proj x0 x2) (Cert.Spec.proj x0 x3) b d e := by
  rw [val_main_v3_apply]
  unfold Cert.Spec.energy
  refine Finset.sum_congr rfl fun n _ => ?_
  rw [lidx_v3, ridx_v3, v1_at, v2_at]
/-- The unscaled context: queries against the batch's energy. -/
theorem v4_at (b : Fin 4) (n : Fin 8192) (e : Fin 64) :
    val_main_v4 (F := Ideal) x0 x1 x2 x3 (ix3 b n e)
      = ∑ d : Fin 64, Cert.Spec.proj x0 x1 b n d
          * Cert.Spec.energy (Cert.Spec.proj x0 x2) (Cert.Spec.proj x0 x3) b d e := by
  rw [val_main_v4_apply]
  refine Finset.sum_congr rfl fun d _ => ?_
  rw [lidx_v4, ridx_v4, v0_at, v3_at]
/-- The broadcast constant is the scale, the same word at every index. -/
theorem v5_at (i : S4x8192x64.Idx) : val_main_v5 (F := Ideal) i = Cert.Spec.scale := by
  rw [val_main_v5_apply, val_main_cst_apply, Ideal.ofBits_def]
  rfl
/-- The scaled context. -/
theorem v6_at (b : Fin 4) (n : Fin 8192) (e : Fin 64) :
    val_main_v6 (F := Ideal) x0 x1 x2 x3 (ix3 b n e)
      = Cert.Spec.ctx (Cert.Spec.proj x0 x1)
          (Cert.Spec.energy (Cert.Spec.proj x0 x2) (Cert.Spec.proj x0 x3)) Cert.Spec.scale b n e := by
  rw [val_main_v6_apply, v4_at, v5_at, Ideal.mulf_def]
  rfl

end stages

/-- The reference's result, as a function of its five arguments, is the specification `G`. -/
theorem ref_eq_G (x0 : (⟨S4x8192x1024, .f32⟩ : BufTy).Contents (Elt Ideal))
    (x1 x2 x3 : (⟨S64x1024, .f32⟩ : BufTy).Contents (Elt Ideal))
    (x4 : (⟨S1024x64, .f32⟩ : BufTy).Contents (Elt Ideal)) :
    val_main_v7 (F := Ideal) x0 x1 x2 x3 x4 = Cert.Spec.G x0 x1 x2 x3 x4 := by
  funext i
  obtain ⟨b, n, j, rfl⟩ : ∃ (b : Fin 4) (n : Fin 8192) (j : Fin 1024), i = ix3 b n j :=
    ⟨i 0, i 1, i 2, eq_ix3 i⟩
  rw [val_main_v7_apply]
  show _ = Cert.Spec.outp _ x4 b n j
  unfold Cert.Spec.outp
  refine Finset.sum_congr rfl fun e _ => ?_
  rw [lidx_v7, ridx_v7, v6_at]

end Cert.RefIsSpec

end
-- ==== Proof.lean ====
/-
  The certificate's five claims.
  The kernel is linear attention in two pallas_calls: the first projects a 2048-row tile to queries, keys and values and
  accumulates `KᵀV` over a batch's four tiles in a scratch buffer; the second multiplies the stored queries by the
  completed energy, scales, and projects out. The reference is the same computation as five einsums over whole arrays.
  FRAMES: each program runs to the end without a fault and never writes an argument — for the kernel (at the word
  level and idealized) by running the two pallas_calls as pipeline regions one after the other, the scratch accumulator's
  contents carried through the first region's invariant; for the reference by its run. PRESERVES: the ideal pass rewrote
  nothing. ALGEBRAIC: on the extended reals the kernel's result is the specification `Spec.G` of the five arrays — the one
  difference, the energy summed tile by tile from a zero accumulator instead of over the whole sequence at once, is a
  regrouping of a finite sum — and so is the reference's; the scale constant is the same 32-bit word on both sides and is
  never evaluated; no law needing finiteness is used.
-/
import proofs.«129314_j39986145526411_1_alg».proof.Defs
import proofs.«129314_j39986145526411_1_alg».proof.Proof.Gen.Kernel
import proofs.«129314_j39986145526411_1_alg».proof.Proof.Gen.KernelIdeal
import proofs.«129314_j39986145526411_1_alg».proof.Proof.Gen.ReferenceIdeal
import proofs.«129314_j39986145526411_1_alg».proof.Proof.Gen.Pre_finite_inputs
import proofs.«129314_j39986145526411_1_alg».proof.Proof.Gen.ReferenceIdeal.Run
import proofs.«129314_j39986145526411_1_alg».proof.Proof.Gen.ReferenceIdeal.Read
import proofs.«129314_j39986145526411_1_alg».proof.Proof.K.Run
import proofs.«129314_j39986145526411_1_alg».proof.Proof.KI.Value
import proofs.«129314_j39986145526411_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : @Cert.frame_Kernel Cert.Kernel.Gen.facts Cert.Pre_finite_inputs.Gen.facts :=
  fun m ρ _ => Cert.Kernel.Hand.frame m ρ

/-- So does the idealized kernel. -/
theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification of the (agreeing) argument arrays in their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.kernel_value m c), (h c).2⟩) (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.RefIsSpec.ref_eq_G,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
